-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x216 : Shape := ⟨2, ![131072, 216]⟩
abbrev S400x216 : Shape := ⟨2, ![400, 216]⟩
abbrev S400x100 : Shape := ⟨2, ![400, 100]⟩
abbrev S400 : Shape := ⟨1, ![400]⟩
abbrev S400x200 : Shape := ⟨2, ![400, 200]⟩
abbrev S1x200 : Shape := ⟨2, ![1, 200]⟩
abbrev S1 : Shape := ⟨1, ![1]⟩
abbrev S_ : Shape := ⟨0, ![]⟩

class Facts : Prop where
  bcast_S_S131072x216 : S_.BroadcastsInDim S131072x216 (![] : Fin 0 → Fin S131072x216.rank)
  reducesTo_S131072x216_S_d0_1 : S131072x216.ReducesTo [0, 1] S_
  h_S_ : 0 < S_.numel
  bcast_S_S400x216 : S_.BroadcastsInDim S400x216 (![] : Fin 0 → Fin S400x216.rank)
  reducesTo_S400x216_S_d0_1 : S400x216.ReducesTo [0, 1] S_
  bcast_S_S400x100 : S_.BroadcastsInDim S400x100 (![] : Fin 0 → Fin S400x100.rank)
  reducesTo_S400x100_S_d0_1 : S400x100.ReducesTo [0, 1] S_
  bcast_S_S400 : S_.BroadcastsInDim S400 (![] : Fin 0 → Fin S400.rank)
  reducesTo_S400_S_d0 : S400.ReducesTo [0] S_
  bcast_S_S400x200 : S_.BroadcastsInDim S400x200 (![] : Fin 0 → Fin S400x200.rank)
  reducesTo_S400x200_S_d0_1 : S400x200.ReducesTo [0, 1] S_
  bcast_S_S1x200 : S_.BroadcastsInDim S1x200 (![] : Fin 0 → Fin S1x200.rank)
  reducesTo_S1x200_S_d0_1 : S1x200.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg18 : FVec F S1 .f32) (main_v83 : IVec S_ 1) (main_v84 : FVec F S1x200 .f32) (main_cst_32 : FVec F S_ .f32) : IVec S_ 1 :=
  let main_v85 : FVec F S1x200 .f32 := broadcastInDim S1x200 ![] bcast_S_S1x200 main_cst_32
  let main_v86 : IVec S1x200 1 := cmpf .olt main_v84 main_v85
  let main_c_33 : IVec S_ 1 := constantI S_ 1 1#1
  let main_v87 : IVec S_ 1 := (fun x v => Host.reduce IntOp.andi x v reducesTo_S1x200_S_d0_1 h_S_) main_v86 main_c_33
  let main_v88 : IVec S_ 1 := andi main_v83 main_v87
  let main_v89 : FVec F S1 .f32 := Host.absf main_arg18
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  main_v93

def fn_part4 {F : FTy → Type} [FloatOps F] (main_arg14 : FVec F S400x100 .f32) (main_arg15 : FVec F S400 .f32) (main_arg16 : FVec F S400 .f32) (main_arg17 : FVec F S1x200 .f32) (main_arg18 : FVec F S1 .f32) (main_v63 : IVec S_ 1) (main_v67 : IVec S_ 1) : IVec S_ 1 :=
  let main_v68 : IVec S_ 1 := andi main_v63 main_v67
  let main_v69 : FVec F S400x100 .f32 := Host.absf main_arg14
  let main_cst_26 : FVec F S_ .f32 := constant S_ .f32 0x7F800000#32
  let main_v70 : FVec F S400x100 .f32 := broadcastInDim S400x100 ![] bcast_S_S400x100 main_cst_26
  let main_v71 : IVec S400x100 1 := cmpf .olt main_v69 main_v70
  let main_c_27 : IVec S_ 1 := constantI S_ 1 1#1
  let main_v72 : IVec S_ 1 := (fun x v => Host.reduce IntOp.andi x v reducesTo_S400x100_S_d0_1 h_S_) main_v71 main_c_27
  let main_v73 : IVec S_ 1 := andi main_v68 main_v72
  let main_v74 : FVec F S400 .f32 := Host.absf main_arg15
  let main_cst_28 : FVec F S_ .f32 := constant S_ .f32 0x7F800000#32
  let main_v75 : FVec F S400 .f32 := broadcastInDim S400 ![] bcast_S_S400 main_cst_28
  let main_v76 : IVec S400 1 := cmpf .olt main_v74 main_v75
  let main_c_29 : IVec S_ 1 := constantI S_ 1 1#1
  let main_v77 : IVec S_ 1 := (fun x v => Host.reduce IntOp.andi x v reducesTo_S400_S_d0 h_S_) main_v76 main_c_29
  let main_v78 : IVec S_ 1 := andi main_v73 main_v77
  let main_v79 : FVec F S400 .f32 := Host.absf main_arg16
  let main_cst_30 : FVec F S_ .f32 := constant S_ .f32 0x7F800000#32
  let main_v80 : FVec F S400 .f32 := broadcastInDim S400 ![] bcast_S_S400 main_cst_30
  let main_v81 : IVec S400 1 := cmpf .olt main_v79 main_v80
  let main_c_31 : IVec S_ 1 := constantI S_ 1 1#1
  let main_v82 : IVec S_ 1 := (fun x v => Host.reduce IntOp.andi x v reducesTo_S400_S_d0 h_S_) main_v81 main_c_31
  let main_v83 : IVec S_ 1 := andi main_v78 main_v82
  let main_v84 : FVec F S1x200 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S400 .f32) (main_arg12 : FVec F S400 .f32) (main_arg13 : FVec F S400x200 .f32) (main_arg14 : FVec F S400x100 .f32) (main_arg15 : FVec F S400 .f32) (main_arg16 : FVec F S400 .f32) (main_arg17 : FVec F S1x200 .f32) (main_arg18 : FVec F S1 .f32) (main_v48 : IVec S_ 1) (main_v49 : FVec F S400x100 .f32) (main_v50 : FVec F S400x100 .f32) : IVec S_ 1 :=
  let main_v51 : IVec S400x100 1 := cmpf .olt main_v49 main_v50
  let main_c_19 : IVec S_ 1 := constantI S_ 1 1#1
  let main_v52 : IVec S_ 1 := (fun x v => Host.reduce IntOp.andi x v reducesTo_S400x100_S_d0_1 h_S_) main_v51 main_c_19
  let main_v53 : IVec S_ 1 := andi main_v48 main_v52
  let main_v54 : FVec F S400 .f32 := Host.absf main_arg11
  let main_cst_20 : FVec F S_ .f32 := constant S_ .f32 0x7F800000#32
  let main_v55 : FVec F S400 .f32 := broadcastInDim S400 ![] bcast_S_S400 main_cst_20
  let main_v56 : IVec S400 1 := cmpf .olt main_v54 main_v55
  let main_c_21 : IVec S_ 1 := constantI S_ 1 1#1
  let main_v57 : IVec S_ 1 := (fun x v => Host.reduce IntOp.andi x v reducesTo_S400_S_d0 h_S_) main_v56 main_c_21
  let main_v58 : IVec S_ 1 := andi main_v53 main_v57
  let main_v59 : FVec F S400 .f32 := Host.absf main_arg12
  let main_cst_22 : FVec F S_ .f32 := constant S_ .f32 0x7F800000#32
  let main_v60 : FVec F S400 .f32 := broadcastInDim S400 ![] bcast_S_S400 main_cst_22
  let main_v61 : IVec S400 1 := cmpf .olt main_v59 main_v60
  let main_c_23 : IVec S_ 1 := constantI S_ 1 1#1
  let main_v62 : IVec S_ 1 := (fun x v => Host.reduce IntOp.andi x v reducesTo_S400_S_d0 h_S_) main_v61 main_c_23
  let main_v63 : IVec S_ 1 := andi main_v58 main_v62
  let main_v64 : FVec F S400x200 .f32 := Host.absf main_arg13
  let main_cst_24 : FVec F S_ .f32 := constant S_ .f32 0x7F800000#32
  let main_v65 : FVec F S400x200 .f32 := broadcastInDim S400x200 ![] bcast_S_S400x200 main_cst_24
  let main_v66 : IVec S400x200 1 := cmpf .olt main_v64 main_v65
  let main_c_25 : IVec S_ 1 := constantI S_ 1 1#1
  let main_v67 : IVec S_ 1 := (fun x v => Host.reduce IntOp.andi x v reducesTo_S400x200_S_d0_1 h_S_) main_v66 main_c_25
  fn_part4 (F := F) main_arg14 main_arg15 main_arg16 main_arg17 main_arg18 main_v63 main_v67

def fn_part2 {F : FTy → Type} [FloatOps F] (main_arg7 : FVec F S400 .f32) (main_arg8 : FVec F S400 .f32) (main_arg9 : FVec F S400x200 .f32) (main_arg10 : FVec F S400x100 .f32) (main_arg11 : FVec F S400 .f32) (main_arg12 : FVec F S400 .f32) (main_arg13 : FVec F S400x200 .f32) (main_arg14 : FVec F S400x100 .f32) (main_arg15 : FVec F S400 .f32) (main_arg16 : FVec F S400 .f32) (main_arg17 : FVec F S1x200 .f32) (main_arg18 : FVec F S1 .f32) (main_v33 : IVec S_ 1) : IVec S_ 1 :=
  let main_v34 : FVec F S400 .f32 := Host.absf main_arg7
  let main_cst_12 : FVec F S_ .f32 := constant S_ .f32 0x7F800000#32
  let main_v35 : FVec F S400 .f32 := broadcastInDim S400 ![] bcast_S_S400 main_cst_12
  let main_v36 : IVec S400 1 := cmpf .olt main_v34 main_v35
  let main_c_13 : IVec S_ 1 := constantI S_ 1 1#1
  let main_v37 : IVec S_ 1 := (fun x v => Host.reduce IntOp.andi x v reducesTo_S400_S_d0 h_S_) main_v36 main_c_13
  let main_v38 : IVec S_ 1 := andi main_v33 main_v37
  let main_v39 : FVec F S400 .f32 := Host.absf main_arg8
  let main_cst_14 : FVec F S_ .f32 := constant S_ .f32 0x7F800000#32
  let main_v40 : FVec F S400 .f32 := broadcastInDim S400 ![] bcast_S_S400 main_cst_14
  let main_v41 : IVec S400 1 := cmpf .olt main_v39 main_v40
  let main_c_15 : IVec S_ 1 := constantI S_ 1 1#1
  let main_v42 : IVec S_ 1 := (fun x v => Host.reduce IntOp.andi x v reducesTo_S400_S_d0 h_S_) main_v41 main_c_15
  let main_v43 : IVec S_ 1 := andi main_v38 main_v42
  let main_v44 : FVec F S400x200 .f32 := Host.absf main_arg9
  let main_cst_16 : FVec F S_ .f32 := constant S_ .f32 0x7F800000#32
  let main_v45 : FVec F S400x200 .f32 := broadcastInDim S400x200 ![] bcast_S_S400x200 main_cst_16
  let main_v46 : IVec S400x200 1 := cmpf .olt main_v44 main_v45
  let main_c_17 : IVec S_ 1 := constantI S_ 1 1#1
  let main_v47 : IVec S_ 1 := (fun x v => Host.reduce IntOp.andi x v reducesTo_S400x200_S_d0_1 h_S_) main_v46 main_c_17
  let main_v48 : IVec S_ 1 := andi main_v43 main_v47
  let main_v49 : FVec F S400x100 .f32 := Host.absf main_arg10
  let main_cst_18 : FVec F S_ .f32 := constant S_ .f32 0x7F800000#32
  let main_v50 : FVec F S400x100 .f32 := broadcastInDim S400x100 ![] bcast_S_S400x100 main_cst_18
  fn_part3 (F := F) main_arg11 main_arg12 main_arg13 main_arg14 main_arg15 main_arg16 main_arg17 main_arg18 main_v48 main_v49 main_v50

def fn_part1 {F : FTy → Type} [FloatOps F] (main_arg4 : FVec F S400 .f32) (main_arg5 : FVec F S400x216 .f32) (main_arg6 : FVec F S400x100 .f32) (main_arg7 : FVec F S400 .f32) (main_arg8 : FVec F S400 .f32) (main_arg9 : FVec F S400x200 .f32) (main_arg10 : FVec F S400x100 .f32) (main_arg11 : FVec F S400 .f32) (main_arg12 : FVec F S400 .f32) (main_arg13 : FVec F S400x200 .f32) (main_arg14 : FVec F S400x100 .f32) (main_arg15 : FVec F S400 .f32) (main_arg16 : FVec F S400 .f32) (main_arg17 : FVec F S1x200 .f32) (main_arg18 : FVec F S1 .f32) (main_v13 : IVec S_ 1) (main_v16 : IVec S400 1) : IVec S_ 1 :=
  let main_c_5 : IVec S_ 1 := constantI S_ 1 1#1
  let main_v17 : IVec S_ 1 := (fun x v => Host.reduce IntOp.andi x v reducesTo_S400_S_d0 h_S_) main_v16 main_c_5
  let main_v18 : IVec S_ 1 := andi main_v13 main_v17
  let main_v19 : FVec F S400 .f32 := Host.absf main_arg4
  let main_cst_6 : FVec F S_ .f32 := constant S_ .f32 0x7F800000#32
  let main_v20 : FVec F S400 .f32 := broadcastInDim S400 ![] bcast_S_S400 main_cst_6
  let main_v21 : IVec S400 1 := cmpf .olt main_v19 main_v20
  let main_c_7 : IVec S_ 1 := constantI S_ 1 1#1
  let main_v22 : IVec S_ 1 := (fun x v => Host.reduce IntOp.andi x v reducesTo_S400_S_d0 h_S_) main_v21 main_c_7
  let main_v23 : IVec S_ 1 := andi main_v18 main_v22
  let main_v24 : FVec F S400x216 .f32 := Host.absf main_arg5
  let main_cst_8 : FVec F S_ .f32 := constant S_ .f32 0x7F800000#32
  let main_v25 : FVec F S400x216 .f32 := broadcastInDim S400x216 ![] bcast_S_S400x216 main_cst_8
  let main_v26 : IVec S400x216 1 := cmpf .olt main_v24 main_v25
  let main_c_9 : IVec S_ 1 := constantI S_ 1 1#1
  let main_v27 : IVec S_ 1 := (fun x v => Host.reduce IntOp.andi x v reducesTo_S400x216_S_d0_1 h_S_) main_v26 main_c_9
  let main_v28 : IVec S_ 1 := andi main_v23 main_v27
  let main_v29 : FVec F S400x100 .f32 := Host.absf main_arg6
  let main_cst_10 : FVec F S_ .f32 := constant S_ .f32 0x7F800000#32
  let main_v30 : FVec F S400x100 .f32 := broadcastInDim S400x100 ![] bcast_S_S400x100 main_cst_10
  let main_v31 : IVec S400x100 1 := cmpf .olt main_v29 main_v30
  let main_c_11 : IVec S_ 1 := constantI S_ 1 1#1
  let main_v32 : IVec S_ 1 := (fun x v => Host.reduce IntOp.andi x v reducesTo_S400x100_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S131072x216 .f32) (main_arg1 : FVec F S400x216 .f32) (main_arg2 : FVec F S400x100 .f32) (main_arg3 : FVec F S400 .f32) (main_arg4 : FVec F S400 .f32) (main_arg5 : FVec F S400x216 .f32) (main_arg6 : FVec F S400x100 .f32) (main_arg7 : FVec F S400 .f32) (main_arg8 : FVec F S400 .f32) (main_arg9 : FVec F S400x200 .f32) (main_arg10 : FVec F S400x100 .f32) (main_arg11 : FVec F S400 .f32) (main_arg12 : FVec F S400 .f32) (main_arg13 : FVec F S400x200 .f32) (main_arg14 : FVec F S400x100 .f32) (main_arg15 : FVec F S400 .f32) (main_arg16 : FVec F S400 .f32) (main_arg17 : FVec F S1x200 .f32) (main_arg18 : FVec F S1 .f32) : IVec S_ 1 :=
  let main_v0 : FVec F S131072x216 .f32 := Host.absf main_arg0
  let main_cst : FVec F S_ .f32 := constant S_ .f32 0x7F800000#32
  let main_v1 : FVec F S131072x216 .f32 := broadcastInDim S131072x216 ![] bcast_S_S131072x216 main_cst
  let main_v2 : IVec S131072x216 1 := cmpf .olt main_v0 main_v1
  let main_c : IVec S_ 1 := constantI S_ 1 1#1
  let main_v3 : IVec S_ 1 := (fun x v => Host.reduce IntOp.andi x v reducesTo_S131072x216_S_d0_1 h_S_) main_v2 main_c
  let main_v4 : FVec F S400x216 .f32 := Host.absf main_arg1
  let main_cst_0 : FVec F S_ .f32 := constant S_ .f32 0x7F800000#32
  let main_v5 : FVec F S400x216 .f32 := broadcastInDim S400x216 ![] bcast_S_S400x216 main_cst_0
  let main_v6 : IVec S400x216 1 := cmpf .olt main_v4 main_v5
  let main_c_1 : IVec S_ 1 := constantI S_ 1 1#1
  let main_v7 : IVec S_ 1 := (fun x v => Host.reduce IntOp.andi x v reducesTo_S400x216_S_d0_1 h_S_) main_v6 main_c_1
  let main_v8 : IVec S_ 1 := andi main_v3 main_v7
  let main_v9 : FVec F S400x100 .f32 := Host.absf main_arg2
  let main_cst_2 : FVec F S_ .f32 := constant S_ .f32 0x7F800000#32
  let main_v10 : FVec F S400x100 .f32 := broadcastInDim S400x100 ![] bcast_S_S400x100 main_cst_2
  let main_v11 : IVec S400x100 1 := cmpf .olt main_v9 main_v10
  let main_c_3 : IVec S_ 1 := constantI S_ 1 1#1
  let main_v12 : IVec S_ 1 := (fun x v => Host.reduce IntOp.andi x v reducesTo_S400x100_S_d0_1 h_S_) main_v11 main_c_3
  let main_v13 : IVec S_ 1 := andi main_v8 main_v12
  let main_v14 : FVec F S400 .f32 := Host.absf main_arg3
  let main_cst_4 : FVec F S_ .f32 := constant S_ .f32 0x7F800000#32
  let main_v15 : FVec F S400 .f32 := broadcastInDim S400 ![] bcast_S_S400 main_cst_4
  let main_v16 : IVec S400 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S131072x216 : Shape := ⟨2, ![131072, 216]⟩
abbrev S400x216 : Shape := ⟨2, ![400, 216]⟩
abbrev S400x100 : Shape := ⟨2, ![400, 100]⟩
abbrev S400 : Shape := ⟨1, ![400]⟩
abbrev S400x200 : Shape := ⟨2, ![400, 200]⟩
abbrev S1x200 : Shape := ⟨2, ![1, 200]⟩
abbrev S1 : Shape := ⟨1, ![1]⟩
abbrev S216x400 : Shape := ⟨2, ![216, 400]⟩
abbrev S200x400 : Shape := ⟨2, ![200, 400]⟩
abbrev S200x1 : Shape := ⟨2, ![200, 1]⟩
abbrev S1x400 : Shape := ⟨2, ![1, 400]⟩
abbrev S1x1 : Shape := ⟨2, ![1, 1]⟩
abbrev S131072x1 : Shape := ⟨2, ![131072, 1]⟩
abbrev S2048x216 : Shape := ⟨2, ![2048, 216]⟩
abbrev S2048x1 : Shape := ⟨2, ![2048, 1]⟩
abbrev S2048x400 : Shape := ⟨2, ![2048, 400]⟩
abbrev S2048x100 : Shape := ⟨2, ![2048, 100]⟩
abbrev S2048x200 : Shape := ⟨2, ![2048, 200]⟩

abbrev nBuf : Space → Nat
  | .hbm => 34
  | .vmem => 14
  | .smem => 0
  | _ => 0

abbrev bufTy : (tb : Table) → Fin (tcTables nBuf tb) → BufTy
  | .hbm, ⟨0, _⟩ => ⟨S131072x216, .f32⟩
  | .hbm, ⟨1, _⟩ => ⟨S400x216, .f32⟩
  | .hbm, ⟨2, _⟩ => ⟨S400x100, .f32⟩
  | .hbm, ⟨3, _⟩ => ⟨S400, .f32⟩
  | .hbm, ⟨4, _⟩ => ⟨S400, .f32⟩
  | .hbm, ⟨5, _⟩ => ⟨S400x216, .f32⟩
  | .hbm, ⟨6, _⟩ => ⟨S400x100, .f32⟩
  | .hbm, ⟨7, _⟩ => ⟨S400, .f32⟩
  | .hbm, ⟨8, _⟩ => ⟨S400, .f32⟩
  | .hbm, ⟨9, _⟩ => ⟨S400x200, .f32⟩
  | .hbm, ⟨10, _⟩ => ⟨S400x100, .f32⟩
  | .hbm, ⟨11, _⟩ => ⟨S400, .f32⟩
  | .hbm, ⟨12, _⟩ => ⟨S400, .f32⟩
  | .hbm, ⟨13, _⟩ => ⟨S400x200, .f32⟩
  | .hbm, ⟨14, _⟩ => ⟨S400x100, .f32⟩
  | .hbm, ⟨15, _⟩ => ⟨S400, .f32⟩
  | .hbm, ⟨16, _⟩ => ⟨S400, .f32⟩
  | .hbm, ⟨17, _⟩ => ⟨S1x200, .f32⟩
  | .hbm, ⟨18, _⟩ => ⟨S1, .f32⟩
  | .hbm, ⟨19, _⟩ => ⟨S216x400, .f32⟩
  | .hbm, ⟨20, _⟩ => ⟨S216x400, .f32⟩
  | .hbm, ⟨21, _⟩ => ⟨S200x400, .f32⟩
  | .hbm, ⟨22, _⟩ => ⟨S200x400, .f32⟩
  | .hbm, ⟨23, _⟩ => ⟨S200x1, .f32⟩
  | .hbm, ⟨24, _⟩ => ⟨S400, .f32⟩
  | .hbm, ⟨25, _⟩ => ⟨S1x400, .f32⟩
  | .hbm, ⟨26, _⟩ => ⟨S400, .f32⟩
  | .hbm, ⟨27, _⟩ => ⟨S1x400, .f32⟩
  | .hbm, ⟨28, _⟩ => ⟨S400, .f32⟩
  | .hbm, ⟨29, _⟩ => ⟨S1x400, .f32⟩
  | .hbm, ⟨30, _⟩ => ⟨S400, .f32⟩
  | .hbm, ⟨31, _⟩ => ⟨S1x400, .f32⟩
  | .hbm, ⟨32, _⟩ => ⟨S1x1, .f32⟩
  | .hbm, ⟨33, _⟩ => ⟨S131072x1, .f32⟩
  | .local _ .vmem, ⟨0, _⟩ => ⟨S2048x216, .f32⟩
  | .local _ .vmem, ⟨1, _⟩ => ⟨S2048x216, .f32⟩
  | .local _ .vmem, ⟨2, _⟩ => ⟨S216x400, .f32⟩
  | .local _ .vmem, ⟨3, _⟩ => ⟨S216x400, .f32⟩
  | .local _ .vmem, ⟨4, _⟩ => ⟨S1x400, .f32⟩
  | .local _ .vmem, ⟨5, _⟩ => ⟨S1x400, .f32⟩
  | .local _ .vmem, ⟨6, _⟩ => ⟨S200x400, .f32⟩
  | .local _ .vmem, ⟨7, _⟩ => ⟨S200x400, .f32⟩
  | .local _ .vmem, ⟨8, _⟩ => ⟨S1x400, .f32⟩
  | .local _ .vmem, ⟨9, _⟩ => ⟨S1x400, .f32⟩
  | .local _ .vmem, ⟨10, _⟩ => ⟨S200x1, .f32⟩
  | .local _ .vmem, ⟨11, _⟩ => ⟨S1x1, .f32⟩
  | .local _ .vmem, ⟨12, _⟩ => ⟨S2048x1, .f32⟩
  | .local _ .vmem, ⟨13, _⟩ => ⟨S2048x1, .f32⟩
  | _, _ => ⟨S131072x216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x216 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S216x400 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S216x400 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x400 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x400 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S200x400 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S200x400 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x400 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x400 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S200x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S400x216_S216x400_1_0 : S400x216.Transposes [1, 0] S216x400
  transposes_S400x200_S200x400_1_0 : S400x200.Transposes [1, 0] S200x400
  transposes_S1x200_S200x1_1_0 : S1x200.Transposes [1, 0] S200x1
  shapeCasts_S400_S1x400 : S400.ShapeCasts S1x400
  shapeCasts_S1_S1x1 : S1.ShapeCasts S1x1
  inb_S2048x216_S2048x216_0_0 : ∀ a, (![0, 0] : Fin 2 → Nat) a + S2048x216.size a ≤ S2048x216.size a
  h_S2048x216 : 0 < S2048x216.numel
  inb_S216x400_S216x400_0_0 : ∀ a, (![0, 0] : Fin 2 → Nat) a + S216x400.size a ≤ S216x400.size a
  h_S216x400 : 0 < S216x400.numel
  shapeCasts_S216x400_S216x400 : S216x400.ShapeCasts S216x400
  inb_S1x400_S1x400_0_0 : ∀ a, (![0, 0] : Fin 2 → Nat) a + S1x400.size a ≤ S1x400.size a
  h_S1x400 : 0 < S1x400.numel
  shapeCasts_S1x400_S1x400 : S1x400.ShapeCasts S1x400
  broadcasts_S1x400_S2048x400 : S1x400.Broadcasts S2048x400
  slices_S2048x400_o0_0_S2048x100 : S2048x400.Slices ![0, 0] S2048x100
  slices_S2048x400_o0_100_S2048x100 : S2048x400.Slices ![0, 100] S2048x100
  slices_S2048x400_o0_200_S2048x100 : S2048x400.Slices ![0, 200] S2048x100
  slices_S2048x400_o0_300_S2048x100 : S2048x400.Slices ![0, 300] S2048x100
  concatenates_S2048x100_S2048x100_S2048x200_d1 : Shape.Concatenates [S2048x100, S2048x100] S2048x200 1
  inb_S200x400_S200x400_0_0 : ∀ a, (![0, 0] : Fin 2 → Nat) a + S200x400.size a ≤ S200x400.size a
  h_S200x400 : 0 < S200x400.numel
  shapeCasts_S200x400_S200x400 : S200x400.ShapeCasts S200x400
  inb_S200x1_S200x1_0_0 : ∀ a, (![0, 0] : Fin 2 → Nat) a + S200x1.size a ≤ S200x1.size a
  h_S200x1 : 0 < S200x1.numel
  shapeCasts_S200x1_S200x1 : S200x1.ShapeCasts S200x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  dot_S2048x216_S216x400_S2048x400_1_0_0_1_n_n_wf : DotDims.WF S2048x216 S216x400 S2048x400 [1] [0] [0] [1] [] []
  dot_S2048x200_S200x400_S2048x400_1_0_0_1_n_n_wf : DotDims.WF S2048x200 S200x400 S2048x400 [1] [0] [0] [1] [] []
  dot_S2048x200_S200x1_S2048x1_1_0_0_1_n_n_wf : DotDims.WF S2048x200 S200x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x216.size a ≤ S131072x216.size a
  hwx0_0 : ∀ i : grid0.Coords, EltTy.bits .f32 = 32 ∨ (Rect.block (s := S131072x216) S2048x216.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S216x400.size a ≤ S216x400.size a
  hwx0_1 : ∀ i : grid0.Coords, EltTy.bits .f32 = 32 ∨ (Rect.block (s := S216x400) S216x400.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S216x400.size a ≤ S216x400.size a
  hwx0_2 : ∀ i : grid0.Coords, EltTy.bits .f32 = 32 ∨ (Rect.block (s := S216x400) S216x400.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x400.size a ≤ S1x400.size a
  hwx0_3 : ∀ i : grid0.Coords, EltTy.bits .f32 = 32 ∨ (Rect.block (s := S1x400) S1x400.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x400.size a ≤ S1x400.size a
  hwx0_4 : ∀ i : grid0.Coords, EltTy.bits .f32 = 32 ∨ (Rect.block (s := S1x400) S1x400.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S200x400.size a ≤ S200x400.size a
  hwx0_5 : ∀ i : grid0.Coords, EltTy.bits .f32 = 32 ∨ (Rect.block (s := S200x400) S200x400.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S200x400.size a ≤ S200x400.size a
  hwx0_6 : ∀ i : grid0.Coords, EltTy.bits .f32 = 32 ∨ (Rect.block (s := S200x400) S200x400.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x400.size a ≤ S1x400.size a
  hwx0_7 : ∀ i : grid0.Coords, EltTy.bits .f32 = 32 ∨ (Rect.block (s := S1x400) S1x400.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x400.size a ≤ S1x400.size a
  hwx0_8 : ∀ i : grid0.Coords, EltTy.bits .f32 = 32 ∨ (Rect.block (s := S1x400) S1x400.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S200x1.size a ≤ S200x1.size a
  hwx0_9 : ∀ i : grid0.Coords, EltTy.bits .f32 = 32 ∨ (Rect.block (s := S200x1) S200x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x1.size a ≤ S131072x1.size a
  hwx0_11 : ∀ i : grid0.Coords, EltTy.bits .f32 = 32 ∨ (Rect.block (s := S131072x1) S2048x1.size (cc0_transform_11 i) (hinb0_11 i)).WholeWords (EltTy.packing .f32)

variable [Facts₀]

def dot_S2048x216_S216x400_S2048x400_1_0_0_1_n_n : DotDims S2048x216 S216x400 S2048x400 where
  lhsContracting := [1]
  rhsContracting := [0]
  lhsNonContracting := [0]
  rhsNonContracting := [1]
  lhsBatch := []
  rhsBatch := []
  wf := dot_S2048x216_S216x400_S2048x400_1_0_0_1_n_n_wf
def dot_S2048x200_S200x400_S2048x400_1_0_0_1_n_n : DotDims S2048x200 S200x400 S2048x400 where
  lhsContracting := [1]
  rhsContracting := [0]
  lhsNonContracting := [0]
  rhsNonContracting := [1]
  lhsBatch := []
  rhsBatch := []
  wf := dot_S2048x200_S200x400_S2048x400_1_0_0_1_n_n_wf
def dot_S2048x200_S200x1_S2048x1_1_0_0_1_n_n : DotDims S2048x200 S200x1 S2048x1 where
  lhsContracting := [1]
  rhsContracting := [0]
  lhsNonContracting := [0]
  rhsNonContracting := [1]
  lhsBatch := []
  rhsBatch := []
  wf := dot_S2048x200_S200x1_S2048x1_1_0_0_1_n_n_wf

abbrev win0_0 : Pipeline.Window sig grid0 :=
  Pipeline.Window.ofSpec (Memref.whole main_arg0) S2048x216.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S216x400.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S216x400.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x400.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x400.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S200x400.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S200x400.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x400.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x400.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S200x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v14) S2048x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S131072x216 : Shape := ⟨2, ![131072, 216]⟩
abbrev S400x216 : Shape := ⟨2, ![400, 216]⟩
abbrev S400x100 : Shape := ⟨2, ![400, 100]⟩
abbrev S400 : Shape := ⟨1, ![400]⟩
abbrev S400x200 : Shape := ⟨2, ![400, 200]⟩
abbrev S1x200 : Shape := ⟨2, ![1, 200]⟩
abbrev S1 : Shape := ⟨1, ![1]⟩
abbrev S216x400 : Shape := ⟨2, ![216, 400]⟩
abbrev S131072x400 : Shape := ⟨2, ![131072, 400]⟩
abbrev S1x400 : Shape := ⟨2, ![1, 400]⟩
abbrev S131072x100 : Shape := ⟨2, ![131072, 100]⟩
abbrev S_ : Shape := ⟨0, ![]⟩
abbrev S131072x200 : Shape := ⟨2, ![131072, 200]⟩
abbrev S200x400 : Shape := ⟨2, ![200, 400]⟩
abbrev S200x1 : Shape := ⟨2, ![200, 1]⟩
abbrev S131072x1 : Shape := ⟨2, ![131072, 1]⟩
abbrev S1x1 : Shape := ⟨2, ![1, 1]⟩

abbrev nBuf : Space → Nat
  | .hbm => 154
  | .vmem => 0
  | .smem => 0
  | _ => 0

abbrev hbmTy0_0 (i : Nat) : BufTy := match i % 128 with
  | 0 => ⟨S131072x216, .f32⟩
  | 1 => ⟨S400x216, .f32⟩
  | 2 => ⟨S400x100, .f32⟩
  | 3 => ⟨S400, .f32⟩
  | 4 => ⟨S400, .f32⟩
  | 5 => ⟨S400x216, .f32⟩
  | 6 => ⟨S400x100, .f32⟩
  | 7 => ⟨S400, .f32⟩
  | 8 => ⟨S400, .f32⟩
  | 9 => ⟨S400x200, .f32⟩
  | 10 => ⟨S400x100, .f32⟩
  | 11 => ⟨S400, .f32⟩
  | 12 => ⟨S400, .f32⟩
  | 13 => ⟨S400x200, .f32⟩
  | 14 => ⟨S400x100, .f32⟩
  | 15 => ⟨S400, .f32⟩
  | 16 => ⟨S400, .f32⟩
  | 17 => ⟨S1x200, .f32⟩
  | 18 => ⟨S1, .f32⟩
  | 19 => ⟨S216x400, .f32⟩
  | 20 => ⟨S131072x400, .f32⟩
  | 21 => ⟨S400, .f32⟩
  | 22 => ⟨S1x400, .f32⟩
  | 23 => ⟨S131072x400, .f32⟩
  | 24 => ⟨S131072x400, .f32⟩
  | 25 => ⟨S131072x100, .f32⟩
  | 26 => ⟨S131072x100, .f32⟩
  | 27 => ⟨S131072x100, .f32⟩
  | 28 => ⟨S131072x100, .f32⟩
  | 29 => ⟨S131072x100, .f32⟩
  | 30 => ⟨S131072x100, .f32⟩
  | 31 => ⟨S_, .f32⟩
  | 32 => ⟨S131072x100, .f32⟩
  | 33 => ⟨S131072x100, .f32⟩
  | 34 => ⟨S_, .f32⟩
  | 35 => ⟨S131072x100, .f32⟩
  | 36 => ⟨S131072x100, .f32⟩
  | 37 => ⟨S131072x100, .f32⟩
  | 38 => ⟨S131072x100, .f32⟩
  | 39 => ⟨S131072x100, .f32⟩
  | 40 => ⟨S131072x100, .f32⟩
  | 41 => ⟨S_, .f32⟩
  | 42 => ⟨S131072x100, .f32⟩
  | 43 => ⟨S131072x100, .f32⟩
  | 44 => ⟨S_, .f32⟩
  | 45 => ⟨S131072x100, .f32⟩
  | 46 => ⟨S131072x100, .f32⟩
  | 47 => ⟨S131072x100, .f32⟩
  | 48 => ⟨S131072x100, .f32⟩
  | 49 => ⟨S216x400, .f32⟩
  | 50 => ⟨S131072x400, .f32⟩
  | 51 => ⟨S400, .f32⟩
  | 52 => ⟨S1x400, .f32⟩
  | 53 => ⟨S131072x400, .f32⟩
  | 54 => ⟨S131072x400, .f32⟩
  | 55 => ⟨S131072x100, .f32⟩
  | 56 => ⟨S131072x100, .f32⟩
  | 57 => ⟨S131072x100, .f32⟩
  | 58 => ⟨S131072x100, .f32⟩
  | 59 => ⟨S131072x100, .f32⟩
  | 60 => ⟨S131072x100, .f32⟩
  | 61 => ⟨S_, .f32⟩
  | 62 => ⟨S131072x100, .f32⟩
  | 63 => ⟨S131072x100, .f32⟩
  | 64 => ⟨S_, .f32⟩
  | 65 => ⟨S131072x100, .f32⟩
  | 66 => ⟨S131072x100, .f32⟩
  | 67 => ⟨S131072x100, .f32⟩
  | 68 => ⟨S131072x100, .f32⟩
  | 69 => ⟨S131072x100, .f32⟩
  | 70 => ⟨S131072x100, .f32⟩
  | 71 => ⟨S_, .f32⟩
  | 72 => ⟨S131072x100, .f32⟩
  | 73 => ⟨S131072x100, .f32⟩
  | 74 => ⟨S_, .f32⟩
  | 75 => ⟨S131072x100, .f32⟩
  | 76 => ⟨S131072x100, .f32⟩
  | 77 => ⟨S131072x100, .f32⟩
  | 78 => ⟨S131072x100, .f32⟩
  | 79 => ⟨S131072x200, .f32⟩
  | 80 => ⟨S200x400, .f32⟩
  | 81 => ⟨S131072x400, .f32⟩
  | 82 => ⟨S400, .f32⟩
  | 83 => ⟨S1x400, .f32⟩
  | 84 => ⟨S131072x400, .f32⟩
  | 85 => ⟨S131072x400, .f32⟩
  | 86 => ⟨S131072x100, .f32⟩
  | 87 => ⟨S131072x100, .f32⟩
  | 88 => ⟨S131072x100, .f32⟩
  | 89 => ⟨S131072x100, .f32⟩
  | 90 => ⟨S131072x100, .f32⟩
  | 91 => ⟨S131072x100, .f32⟩
  | 92 => ⟨S_, .f32⟩
  | 93 => ⟨S131072x100, .f32⟩
  | 94 => ⟨S131072x100, .f32⟩
  | 95 => ⟨S_, .f32⟩
  | 96 => ⟨S131072x100, .f32⟩
  | 97 => ⟨S131072x100, .f32⟩
  | 98 => ⟨S131072x100, .f32⟩
  | 99 => ⟨S131072x100, .f32⟩
  | 100 => ⟨S131072x100, .f32⟩
  | 101 => ⟨S131072x100, .f32⟩
  | 102 => ⟨S_, .f32⟩
  | 103 => ⟨S131072x100, .f32⟩
  | 104 => ⟨S131072x100, .f32⟩
  | 105 => ⟨S_, .f32⟩
  | 106 => ⟨S131072x100, .f32⟩
  | 107 => ⟨S131072x100, .f32⟩
  | 108 => ⟨S131072x100, .f32⟩
  | 109 => ⟨S131072x100, .f32⟩
  | 110 => ⟨S200x400, .f32⟩
  | 111 => ⟨S131072x400, .f32⟩
  | 112 => ⟨S400, .f32⟩
  | 113 => ⟨S1x400, .f32⟩
  | 114 => ⟨S131072x400, .f32⟩
  | 115 => ⟨S131072x400, .f32⟩
  | 116 => ⟨S131072x100, .f32⟩
  | 117 => ⟨S131072x100, .f32⟩
  | 118 => ⟨S131072x100, .f32⟩
  | 119 => ⟨S131072x100, .f32⟩
  | 120 => ⟨S131072x100, .f32⟩
  | 121 => ⟨S131072x100, .f32⟩
  | 122 => ⟨S_, .f32⟩
  | 123 => ⟨S131072x100, .f32⟩
  | 124 => ⟨S131072x100, .f32⟩
  | 125 => ⟨S_, .f32⟩
  | 126 => ⟨S131072x100, .f32⟩
  | 127 => ⟨S131072x100, .f32⟩
  | _ => ⟨S131072x216, .f32⟩

abbrev hbmTy0_1 (i : Nat) : BufTy := match i % 128 with
  | 0 => ⟨S131072x100, .f32⟩
  | 1 => ⟨S131072x100, .f32⟩
  | 2 => ⟨S131072x100, .f32⟩
  | 3 => ⟨S131072x100, .f32⟩
  | 4 => ⟨S_, .f32⟩
  | 5 => ⟨S131072x100, .f32⟩
  | 6 => ⟨S131072x100, .f32⟩
  | 7 => ⟨S_, .f32⟩
  | 8 => ⟨S131072x100, .f32⟩
  | 9 => ⟨S131072x100, .f32⟩
  | 10 => ⟨S131072x100, .f32⟩
  | 11 => ⟨S131072x100, .f32⟩
  | 12 => ⟨S131072x200, .f32⟩
  | 13 => ⟨S200x1, .f32⟩
  | 14 => ⟨S131072x1, .f32⟩
  | 15 => ⟨S1x1, .f32⟩
  | 16 => ⟨S131072x1, .f32⟩
  | 17 => ⟨S131072x1, .f32⟩
  | 18 => ⟨S131072x1, .f32⟩
  | 19 => ⟨S131072x1, .f32⟩
  | 20 => ⟨S_, .f32⟩
  | 21 => ⟨S131072x1, .f32⟩
  | 22 => ⟨S131072x1, .f32⟩
  | 23 => ⟨S_, .f32⟩
  | 24 => ⟨S131072x1, .f32⟩
  | 25 => ⟨S131072x1, .f32⟩
  | _ => ⟨S131072x216, .f32⟩

abbrev hbmTy (i : Nat) : BufTy := match i / 128 with
  | 0 => hbmTy0_0 i
  | 1 => hbmTy0_1 i
  | _ => ⟨S131072x216, .f32⟩

abbrev bufTy : (tb : Table) → Fin (tcTables nBuf tb) → BufTy
  | .hbm, ⟨i, _⟩ => hbmTy i
  | _, _ => ⟨S131072x216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst : Ref sig .tc := ⟨.hbm, 31, rfl⟩
abbrev main_v12 : Ref sig .tc := ⟨.hbm, 32, rfl⟩
abbrev main_v13 : Ref sig .tc := ⟨.hbm, 33, rfl⟩
abbrev main_cst_0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_1 : Ref sig .tc := ⟨.hbm, 41, rfl⟩
abbrev main_v20 : Ref sig .tc := ⟨.hbm, 42, rfl⟩
abbrev main_v21 : Ref sig .tc := ⟨.hbm, 43, rfl⟩
abbrev main_cst_2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_3 : Ref sig .tc := ⟨.hbm, 61, rfl⟩
abbrev main_v38 : Ref sig .tc := ⟨.hbm, 62, rfl⟩
abbrev main_v39 : Ref sig .tc := ⟨.hbm, 63, rfl⟩
abbrev main_cst_4 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_5 : Ref sig .tc := ⟨.hbm, 71, rfl⟩
abbrev main_v46 : Ref sig .tc := ⟨.hbm, 72, rfl⟩
abbrev main_v47 : Ref sig .tc := ⟨.hbm, 73, rfl⟩
abbrev main_cst_6 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_7 : Ref sig .tc := ⟨.hbm, 92, rfl⟩
abbrev main_v65 : Ref sig .tc := ⟨.hbm, 93, rfl⟩
abbrev main_v66 : Ref sig .tc := ⟨.hbm, 94, rfl⟩
abbrev main_cst_8 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_9 : Ref sig .tc := ⟨.hbm, 102, rfl⟩
abbrev main_v73 : Ref sig .tc := ⟨.hbm, 103, rfl⟩
abbrev main_v74 : Ref sig .tc := ⟨.hbm, 104, rfl⟩
abbrev main_cst_10 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_11 : Ref sig .tc := ⟨.hbm, 122, rfl⟩
abbrev main_v91 : Ref sig .tc := ⟨.hbm, 123, rfl⟩
abbrev main_v92 : Ref sig .tc := ⟨.hbm, 124, rfl⟩
abbrev main_cst_12 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_13 : Ref sig .tc := ⟨.hbm, 132, rfl⟩
abbrev main_v99 : Ref sig .tc := ⟨.hbm, 133, rfl⟩
abbrev main_v100 : Ref sig .tc := ⟨.hbm, 134, rfl⟩
abbrev main_cst_14 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_15 : Ref sig .tc := ⟨.hbm, 148, rfl⟩
abbrev main_v113 : Ref sig .tc := ⟨.hbm, 149, rfl⟩
abbrev main_v114 : Ref sig .tc := ⟨.hbm, 150, rfl⟩
abbrev main_cst_16 : Ref sig .tc := ⟨.hbm, 151, rfl⟩
abbrev main_v115 : Ref sig .tc := ⟨.hbm, 152, rfl⟩
abbrev main_v116 : Ref sig .tc := ⟨.hbm, 153, rfl⟩

abbrev nD : Nat := 1
abbrev τ : Topo := Topo.v7x

variable {F : FTy → Type} [FloatOps F]

class Facts₀ : Prop where
  transposes_S400x216_S216x400_1_0 : S400x216.Transposes [1, 0] S216x400
  bcast_S400_S1x400_1 : S400.BroadcastsInDim S1x400 (![1] : Fin 1 → Fin S1x400.rank)
  bcast_S1x400_S131072x400_0_1 : S1x400.BroadcastsInDim S131072x400 (![0, 1] : Fin 2 → Fin S131072x400.rank)
  slices_S131072x400_S131072x100_0_0 : S131072x400.Slices ![0, 0] S131072x100
  slices_S131072x400_S131072x100_0_100 : S131072x400.Slices ![0, 100] S131072x100
  slices_S131072x400_S131072x100_0_200 : S131072x400.Slices ![0, 200] S131072x100
  slices_S131072x400_S131072x100_0_300 : S131072x400.Slices ![0, 300] S131072x100
  bcast_S_S131072x100 : S_.BroadcastsInDim S131072x100 (![] : Fin 0 → Fin S131072x100.rank)
  concatenates_S131072x100_S131072x100_S131072x200_d1 : Shape.Concatenates [S131072x100, S131072x100] S131072x200 1
  transposes_S400x200_S200x400_1_0 : S400x200.Transposes [1, 0] S200x400
  transposes_S1x200_S200x1_1_0 : S1x200.Transposes [1, 0] S200x1
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  bcast_S_S131072x1 : S_.BroadcastsInDim S131072x1 (![] : Fin 0 → Fin S131072x1.rank)
  dot_S131072x216_S216x400_S131072x400_1_0_0_1_n_n_wf : DotDims.WF S131072x216 S216x400 S131072x400 [1] [0] [0] [1] [] []
  dot_S131072x200_S200x400_S131072x400_1_0_0_1_n_n_wf : DotDims.WF S131072x200 S200x400 S131072x400 [1] [0] [0] [1] [] []
  dot_S131072x200_S200x1_S131072x1_1_0_0_1_n_n_wf : DotDims.WF S131072x200 S200x1 S131072x1 [1] [0] [0] [1] [] []

variable [Facts₀]

def dot_S131072x216_S216x400_S131072x400_1_0_0_1_n_n : DotDims S131072x216 S216x400 S131072x400 where
  lhsContracting := [1]
  rhsContracting := [0]
  lhsNonContracting := [0]
  rhsNonContracting := [1]
  lhsBatch := []
  rhsBatch := []
  wf := dot_S131072x216_S216x400_S131072x400_1_0_0_1_n_n_wf
def dot_S131072x200_S200x400_S131072x400_1_0_0_1_n_n : DotDims S131072x200 S200x400 S131072x400 where
  lhsContracting := [1]
  rhsContracting := [0]
  lhsNonContracting := [0]
  rhsNonContracting := [1]
  lhsBatch := []
  rhsBatch := []
  wf := dot_S131072x200_S200x400_S131072x400_1_0_0_1_n_n_wf
def dot_S131072x200_S200x1_S131072x1_1_0_0_1_n_n : DotDims S131072x200 S200x1 S131072x1 where
  lhsContracting := [1]
  rhsContracting := [0]
  lhsNonContracting := [0]
  rhsNonContracting := [1]
  lhsBatch := []
  rhsBatch := []
  wf := dot_S131072x200_S200x1_S131072x1_1_0_0_1_n_n_wf

class Facts : Prop extends Facts₀ where

variable [Facts]
-- ==== Proof.RowNet.lean ====
/-
  The mathematics of the claim, with no program in sight.

  A two-layer bidirectional LSTM run for ONE time step from the zero state has no recurrence left in it: each
  direction of each layer is a single gate computation on the layer's input row, and the head is a logistic of an
  affine form of the second layer's output row. So row `r` of the result depends on row `r` of `x` only, and the
  whole computation is a function `net` from one input row (216 extended reals) to one extended real, parametrised
  by the weights and the summed biases read as plain functions:

    gate a w b n   = (∑ k, a k · w k n) + b n                         (400 pre-activations from a row `a`)
    cell g j       = σ(g (300 + j)) · tanh (σ(g j) · tanh (g (200 + j)))    (the gates come in the order i, f, g, o;
                                                                       the forget gate multiplies the zero cell state
                                                                       and is never read)
    join f b       = the 200-vector whose first hundred entries are `f` and whose last hundred are `b`
    layer a …      = join (cell (gate a w_f b_f)) (cell (gate a w_b b_b))
    head h wo bo   = σ((∑ k, h k · wo k) + bo)
    net x …        = head (layer (layer x …) …) wo bo

  with σ the logistic function `1 / (1 + e^(-x))` on the extended reals. Both programs compute exactly this, entry
  by entry, in the same order of operations, so no law of arithmetic beyond the definition of σ is used and no
  finiteness of the inputs is needed.
-/
import Idealize.ShloMosaic.PureOps.Ideal
import Idealize.ShloMosaic.Lib.ValueIdx

noncomputable section

open Idealize.ShloMosaic

namespace Cert.RowNet

/-- The 400 gate pre-activations of one row `a` of width `D`: `a · w + b`, the weight read as `w k n` (input
    coordinate `k`, gate coordinate `n`). -/
def gate {D : Nat} (a : Fin D → EReal) (w : Fin D → Fin 400 → EReal) (b : Fin 400 → EReal) (n : Fin 400) : EReal :=
  (∑ k : Fin D, a k * w k n) + b n

/-- One LSTM step from the zero state, at hidden coordinate `j`: the input gate is entries 0–99 of the
    pre-activations, the candidate 200–299, the output gate 300–399. -/
def cell (g : Fin 400 → EReal) (j : Fin 100) : EReal :=
  Ideal.logistic (g ⟨300 + j.val, by have := j.isLt; omega⟩)
    * Ideal.tanh (Ideal.logistic (g ⟨j.val, by have := j.isLt; omega⟩) * Ideal.tanh (g ⟨200 + j.val, by have := j.isLt; omega⟩))

/-- Two hundred-vectors laid end to end. -/
def join (f b : Fin 100 → EReal) (k : Fin 200) : EReal :=
  if h : k.val < 100 then f ⟨k.val, h⟩ else b ⟨k.val - 100, by have := k.isLt; omega⟩

/-- One bidirectional layer on one row: the forward and the reverse direction see the same row. -/
def layer {D : Nat} (a : Fin D → EReal) (wf : Fin D → Fin 400 → EReal) (bf : Fin 400 → EReal)
    (wb : Fin D → Fin 400 → EReal) (bb : Fin 400 → EReal) : Fin 200 → EReal :=
  join (cell (gate a wf bf)) (cell (gate a wb bb))

/-- The linear head and its logistic. -/
def head (h : Fin 200 → EReal) (wo : Fin 200 → EReal) (bo : EReal) : EReal :=
  Ideal.logistic ((∑ k : Fin 200, h k * wo k) + bo)

/-- The whole network on one row. -/
def net (x : Fin 216 → EReal)
    (w0f : Fin 216 → Fin 400 → EReal) (b0f : Fin 400 → EReal) (w0b : Fin 216 → Fin 400 → EReal) (b0b : Fin 400 → EReal)
    (w1f : Fin 200 → Fin 400 → EReal) (b1f : Fin 400 → EReal) (w1b : Fin 200 → Fin 400 → EReal) (b1b : Fin 400 → EReal)
    (wo : Fin 200 → EReal) (bo : EReal) : EReal :=
  head (layer (layer x w0f b0f w0b b0b) w1f b1f w1b b1b) wo bo

end Cert.RowNet

end
-- ==== Proof.RowOps.lean ====
/-
  Vector operations read at one row, for any number `N` of rows.

  The kernel works on blocks of 2048 rows and the reference on all 131072 at once, but every operation either of them
  applies after a matrix product acts on each row by itself. This module reads those operations at the entry
  `(p, ·)` of row `p` and identifies the result with the row functions of `RowNet`:

  * the gate cell in the kernel's spelling (its logistic is one operation) and in the reference's (which writes the
    logistic out as negate, exponential, add to one, divide one by it): both are `RowNet.cell` of the row of
    pre-activations, the second because `σ x` IS `1 / (1 + e^(-x))` on the extended reals and the word
    `0x3F800000` is the number one;
  * two hundred-column matrices joined along the columns: `RowNet.join` of the two rows.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«147335_j76656576299321_1_alg».proof.Proof.RowNet

noncomputable section

open Idealize.ShloMosaic Idealize.ShloMosaic.ValueIdx

namespace Cert.RowOps

open Cert.RowNet

variable {N : Nat}

/-! ## Pointwise operations at an index (all by definition) -/

theorem logistic_apply {s : Shape} (v : FVec Ideal s .f32) (i : s.Idx) : logistic v i = Ideal.logistic (v i) := rfl
theorem tanh_apply {s : Shape} (v : FVec Ideal s .f32) (i : s.Idx) : tanh v i = Ideal.tanh (v i) := rfl
theorem hostTanh_apply {s : Shape} (v : FVec Ideal s .f32) (i : s.Idx) : Host.tanh v i = Ideal.tanh (v i) := rfl
theorem hostExp_apply {s : Shape} (v : FVec Ideal s .f32) (i : s.Idx) : Host.exp v i = Ideal.exp (v i) := rfl
theorem hostNegf_apply {s : Shape} (v : FVec Ideal s .f32) (i : s.Idx) : Host.negf v i = -(v i) := rfl

/-! ## The gate cell -/

/-- The kernel's spelling of the cell, at row `p` and hidden coordinate `j`. -/
theorem cell_kernel (g : FVec Ideal ⟨2, ![N, 400]⟩ .f32)
    (h0 : (⟨2, ![N, 400]⟩ : Shape).Slices ![0, 0] ⟨2, ![N, 100]⟩)
    (h2 : (⟨2, ![N, 400]⟩ : Shape).Slices ![0, 200] ⟨2, ![N, 100]⟩)
    (h3 : (⟨2, ![N, 400]⟩ : Shape).Slices ![0, 300] ⟨2, ![N, 100]⟩) (p : Fin N) (j : Fin 100) :
    mulf (logistic (extractStridedSlice ⟨2, ![N, 100]⟩ ![0, 300] g h3))
        (tanh (mulf (logistic (extractStridedSlice ⟨2, ![N, 100]⟩ ![0, 0] g h0))
          (tanh (extractStridedSlice ⟨2, ![N, 100]⟩ ![0, 200] g h2)))) (ix2 p j)
      = cell (fun n => g (ix2 p n)) j := by
  simp only [mulf_apply, logistic_apply, tanh_apply]
  rw [slice2_axis1_apply 300 g h3 p j ⟨300 + j.val, by have := j.isLt; omega⟩ rfl,
    slice2_axis1_apply 0 g h0 p j ⟨j.val, by have := j.isLt; omega⟩ (Nat.zero_add _).symm,
    slice2_axis1_apply 200 g h2 p j ⟨200 + j.val, by have := j.isLt; omega⟩ rfl]
  rfl

/-- The reference's spelling: each logistic written out as `1 / (1 + e^(-x))` over broadcasts of the constant one. -/
theorem cell_host (g : FVec Ideal ⟨2, ![N, 400]⟩ .f32)
    (h0 : (⟨2, ![N, 400]⟩ : Shape).Slices ![0, 0] ⟨2, ![N, 100]⟩)
    (h2 : (⟨2, ![N, 400]⟩ : Shape).Slices ![0, 200] ⟨2, ![N, 100]⟩)
    (h3 : (⟨2, ![N, 400]⟩ : Shape).Slices ![0, 300] ⟨2, ![N, 100]⟩)
    (hb : (⟨0, ![]⟩ : Shape).BroadcastsInDim ⟨2, ![N, 100]⟩ ![]) (p : Fin N) (j : Fin 100) :
    mulf
        (Host.divf (broadcastInDim ⟨2, ![N, 100]⟩ ![] hb (constant (F := Ideal) ⟨0, ![]⟩ .f32 0x3F800000#32))
          (addf (broadcastInDim ⟨2, ![N, 100]⟩ ![] hb (constant (F := Ideal) ⟨0, ![]⟩ .f32 0x3F800000#32))
            (Host.exp (Host.negf (extractStridedSlice ⟨2, ![N, 100]⟩ ![0, 300] g h3)))))
        (Host.tanh (mulf
          (Host.divf (broadcastInDim ⟨2, ![N, 100]⟩ ![] hb (constant (F := Ideal) ⟨0, ![]⟩ .f32 0x3F800000#32))
            (addf (broadcastInDim ⟨2, ![N, 100]⟩ ![] hb (constant (F := Ideal) ⟨0, ![]⟩ .f32 0x3F800000#32))
              (Host.exp (Host.negf (extractStridedSlice ⟨2, ![N, 100]⟩ ![0, 0] g h0)))))
          (Host.tanh (extractStridedSlice ⟨2, ![N, 100]⟩ ![0, 200] g h2)))) (ix2 p j)
      = cell (fun n => g (ix2 p n)) j := by
  have one : broadcastInDim ⟨2, ![N, 100]⟩ ![] hb (constant (F := Ideal) ⟨0, ![]⟩ .f32 0x3F800000#32) (ix2 p j) = (1 : EReal) :=
    (broadcastInDim_scalar_apply hb _ _).trans Ideal.ofBits_one_f32
  simp only [mulf_apply, addf_apply, hostDivf_apply, hostTanh_apply, hostExp_apply, hostNegf_apply]
  rw [one, slice2_axis1_apply 300 g h3 p j ⟨300 + j.val, by have := j.isLt; omega⟩ rfl,
    slice2_axis1_apply 0 g h0 p j ⟨j.val, by have := j.isLt; omega⟩ (Nat.zero_add _).symm,
    slice2_axis1_apply 200 g h2 p j ⟨200 + j.val, by have := j.isLt; omega⟩ rfl]
  rfl

/-! ## Two hundred-column matrices joined along the columns -/

/-- Row `p` of the join is the join of the two rows. -/
theorem join_apply (a b : (⟨2, ![N, 100]⟩ : Shape).Idx → EReal)
    (h : Shape.Concatenates [(⟨2, ![N, 100]⟩ : Shape), ⟨2, ![N, 100]⟩] ⟨2, ![N, 200]⟩ 1) (p : Fin N) (k : Fin 200) :
    concatenate ⟨2, ![N, 200]⟩ 1 [⟨⟨2, ![N, 100]⟩, a⟩, ⟨⟨2, ![N, 100]⟩, b⟩] h (ix2 p k)
      = join (fun j => a (ix2 p j)) (fun j => b (ix2 p j)) k := by
  unfold join
  by_cases hk : k.val < 100
  · rw [dif_pos hk]
    refine concatenate_pair_apply_left 1 a b h (ix2 p k) rfl (ix2 p ⟨k.val, hk⟩) fun c => ?_
    match c with
    | ⟨0, _⟩ => rfl
    | ⟨1, _⟩ => rfl
  · rw [dif_neg hk]
    refine concatenate_pair_apply_right 1 a b h (ix2 p k) rfl rfl (ix2 p ⟨k.val - 100, by have := k.isLt; omega⟩) (fun c hc => ?_) ?_
    · match c with
      | ⟨0, _⟩ => rfl
      | ⟨1, _⟩ => exact absurd rfl hc
    · show k.val - 100 + 100 = k.val
      omega

end Cert.RowOps

end
-- ==== Proof.RowGates.lean ====
/-
  A matrix product read at one entry, and the gate pre-activations of one row.

  Every matrix product in either program is the plain one, rows × contraction times contraction × columns. At exact
  arithmetic the kernel's product into a zero accumulator and the reference's `dot_general` are both the sum over the
  one contracted axis of the products of entries, in the same order, so entry `(p, n)` is
  `∑ k, l (p, k) · r (k, n)` with `k` running over the contraction extent itself. Adding a bias row laid along every
  row then gives `RowNet.gate` of row `p`: the kernel lays its `[1, 400]` bias down the rows by a broadcast, the
  reference first makes the `[1, 400]` row out of the `[400]` vector and then broadcasts it, and both read the bias
  at column `n`.
-/
import Idealize.ShloMosaic.Lib.KernelVsHost
import proofs.«147335_j76656576299321_1_alg».proof.Proof.RowOps

noncomputable section

open Idealize.ShloMosaic Idealize.ShloMosaic.ValueIdx

namespace Cert.RowGates

open Cert.RowNet

variable {M K C : Nat}

/-! ## The plain product's operand indices, axis by axis -/

theorem plain_lhs_0 (i : (⟨2, ![M, C]⟩ : Shape).Idx) (q : (DotDims.plain M K C).contr.Idx) :
    ((DotDims.plain M K C).lhsIdx i q 0).val = (i 0).val := by
  unfold DotDims.lhsIdx
  rw [dif_neg (show ¬(0 : Fin (⟨2, ![M, K]⟩ : Shape).rank) ∈ (DotDims.plain M K C).lhsBatch by simp [DotDims.plain]),
    dif_pos (show (0 : Fin (⟨2, ![M, K]⟩ : Shape).rank) ∈ (DotDims.plain M K C).lhsNonContracting by simp [DotDims.plain])]
  rfl

theorem plain_lhs_1 (i : (⟨2, ![M, C]⟩ : Shape).Idx) (q : (DotDims.plain M K C).contr.Idx) :
    ((DotDims.plain M K C).lhsIdx i q 1).val = (q ⟨0, by exact Nat.zero_lt_one⟩).val :=
  (DotDims.plain M K C).lhsIdx_val_of_single rfl i q

theorem plain_rhs_0 (i : (⟨2, ![M, C]⟩ : Shape).Idx) (q : (DotDims.plain M K C).contr.Idx) :
    ((DotDims.plain M K C).rhsIdx i q 0).val = (q ⟨0, by exact Nat.zero_lt_one⟩).val :=
  (DotDims.plain M K C).rhsIdx_val_of_single rfl i q

theorem plain_rhs_1 (i : (⟨2, ![M, C]⟩ : Shape).Idx) (q : (DotDims.plain M K C).contr.Idx) :
    ((DotDims.plain M K C).rhsIdx i q 1).val = (i 1).val := by
  unfold DotDims.rhsIdx
  rw [dif_neg (show ¬(1 : Fin (⟨2, ![K, C]⟩ : Shape).rank) ∈ (DotDims.plain M K C).rhsBatch by simp [DotDims.plain]),
    dif_pos (show (1 : Fin (⟨2, ![K, C]⟩ : Shape).rank) ∈ (DotDims.plain M K C).rhsNonContracting by simp [DotDims.plain])]
  rfl

/-- The contraction of a plain product at entry `(p, n)`, re-indexed by the contracted coordinate. -/
theorem plain_sum (l : (⟨2, ![M, K]⟩ : Shape).Idx → EReal) (r : (⟨2, ![K, C]⟩ : Shape).Idx → EReal) (p : Fin M) (n : Fin C) :
    (∑ q : (DotDims.plain M K C).contr.Idx,
        l ((DotDims.plain M K C).lhsIdx (ix2 p n) q) * r ((DotDims.plain M K C).rhsIdx (ix2 p n) q))
      = ∑ k : Fin K, l (ix2 p k) * r (ix2 k n) := by
  rw [← Equiv.sum_comp (contrEquiv1 (DotDims.plain M K C) K rfl rfl).symm]
  refine Finset.sum_congr rfl fun k _ => ?_
  have hk := contrEquiv1_symm_val (DotDims.plain M K C) K rfl rfl k
  have el : (DotDims.plain M K C).lhsIdx (ix2 p n) ((contrEquiv1 (DotDims.plain M K C) K rfl rfl).symm k) = ix2 p k :=
    funext fun a => Fin.ext (by
      match a with
      | ⟨0, _⟩ => exact plain_lhs_0 _ _
      | ⟨1, _⟩ => exact (plain_lhs_1 _ _).trans hk)
  have er : (DotDims.plain M K C).rhsIdx (ix2 p n) ((contrEquiv1 (DotDims.plain M K C) K rfl rfl).symm k) = ix2 k n :=
    funext fun a => Fin.ext (by
      match a with
      | ⟨0, _⟩ => exact (plain_rhs_0 _ _).trans hk
      | ⟨1, _⟩ => exact plain_rhs_1 _ _)
  rw [el, er]

/-- The kernel's product into the zero accumulator, at entry `(p, n)`. -/
theorem matmul_zero_entry (d : DotDims ⟨2, ![M, K]⟩ ⟨2, ![K, C]⟩ ⟨2, ![M, C]⟩) (hd : d = DotDims.plain M K C)
    (prec : Option ContractPrecision) (l : FVec Ideal ⟨2, ![M, K]⟩ .f32) (r : FVec Ideal ⟨2, ![K, C]⟩ .f32)
    (p : Fin M) (n : Fin C) :
    matmul d prec l r (constant ⟨2, ![M, C]⟩ .f32 0x00000000#32) (ix2 p n) = ∑ k : Fin K, l (ix2 p k) * r (ix2 k n) := by
  subst hd
  show FloatOps.matmul (DotDims.plain M K C) prec l r (constant ⟨2, ![M, C]⟩ .f32 0x00000000#32) (ix2 p n) = _
  rw [Ideal.matmul_constant_zero_apply]
  exact plain_sum l r p n

/-- The reference's `dot_general`, at entry `(p, n)`. -/
theorem dotGeneral_entry (d : DotDims ⟨2, ![M, K]⟩ ⟨2, ![K, C]⟩ ⟨2, ![M, C]⟩) (hd : d = DotDims.plain M K C)
    (prec : Option ContractPrecision) (l : FVec Ideal ⟨2, ![M, K]⟩ .f32) (r : FVec Ideal ⟨2, ![K, C]⟩ .f32)
    (p : Fin M) (n : Fin C) :
    Host.dotGeneral d prec l r (ix2 p n) = ∑ k : Fin K, l (ix2 p k) * r (ix2 k n) := by
  subst hd
  rw [← matmul_zero_eq_dotGeneral]
  exact matmul_zero_entry _ rfl prec l r p n

/-! ## Gate pre-activations -/

/-- The kernel's: product into zero, plus its `[1, 400]` bias block broadcast down the rows (the two shape casts
    are between equal shapes). -/
theorem gate_kernel (d : DotDims ⟨2, ![M, K]⟩ ⟨2, ![K, 400]⟩ ⟨2, ![M, 400]⟩) (hd : d = DotDims.plain M K 400)
    (a : FVec Ideal ⟨2, ![M, K]⟩ .f32) (w : FVec Ideal ⟨2, ![K, 400]⟩ .f32) (b : FVec Ideal ⟨2, ![1, 400]⟩ .f32)
    (hw : (⟨2, ![K, 400]⟩ : Shape).ShapeCasts ⟨2, ![K, 400]⟩) (hb : (⟨2, ![1, 400]⟩ : Shape).ShapeCasts ⟨2, ![1, 400]⟩)
    (hbb : (⟨2, ![1, 400]⟩ : Shape).Broadcasts ⟨2, ![M, 400]⟩) (p : Fin M) (n : Fin 400) :
    addf (matmul d none a (shapeCast ⟨2, ![K, 400]⟩ w hw) (constant ⟨2, ![M, 400]⟩ .f32 0x00000000#32))
        (broadcastTo ⟨2, ![M, 400]⟩ (shapeCast ⟨2, ![1, 400]⟩ b hb) hbb) (ix2 p n)
      = gate (fun k => a (ix2 p k)) (fun k n => w (ix2 k n)) (fun n => b (ix2 (0 : Fin 1) n)) n := by
  rw [shapeCast_self, shapeCast_self, addf_apply, matmul_zero_entry d hd, broadcastTo_1b_ab_apply]
  rfl

/-- The reference's: `dot_general` with the transposed weight, plus the `[400]` bias sum made a row and broadcast. -/
theorem gate_host (d : DotDims ⟨2, ![M, K]⟩ ⟨2, ![K, 400]⟩ ⟨2, ![M, 400]⟩) (hd : d = DotDims.plain M K 400)
    (a : FVec Ideal ⟨2, ![M, K]⟩ .f32) (w : FVec Ideal ⟨2, ![K, 400]⟩ .f32) (b : FVec Ideal ⟨1, ![400]⟩ .f32)
    (h1 : (⟨1, ![400]⟩ : Shape).BroadcastsInDim ⟨2, ![1, 400]⟩ ![1])
    (h2 : (⟨2, ![1, 400]⟩ : Shape).BroadcastsInDim ⟨2, ![M, 400]⟩ ![0, 1]) (p : Fin M) (n : Fin 400) :
    addf (Host.dotGeneral d none a w)
        (broadcastInDim ⟨2, ![M, 400]⟩ ![0, 1] h2 (broadcastInDim ⟨2, ![1, 400]⟩ ![1] h1 b)) (ix2 p n)
      = gate (fun k => a (ix2 p k)) (fun k n => w (ix2 k n)) (fun n => b (ix1 n)) n := by
  rw [addf_apply, dotGeneral_entry d hd, broadcastInDim_oneRow_apply]
  have e : broadcastInDim ⟨2, ![1, 400]⟩ ![1] h1 b (ix2 (0 : Fin 1) n) = b (ix1 n) :=
    broadcastInDim_apply ![1] h1 b (ix2 (0 : Fin 1) n) (ix1 n) (fun c => by
      match c with
      | ⟨0, _⟩ => show n.val = if (400 : Nat) = 1 then 0 else n.val; rw [if_neg (by decide)])
  rw [e]
  rfl

/-- Two weight readings and two bias readings that agree entry by entry give the same pre-activations. -/
theorem gate_congr {D : Nat} (a : Fin D → EReal) {w w' : Fin D → Fin 400 → EReal} {b b' : Fin 400 → EReal}
    (hw : ∀ k n, w k n = w' k n) (hb : ∀ n, b n = b' n) (n : Fin 400) : gate a w b n = gate a w' b' n := by
  have e1 : w = w' := funext fun k => funext fun n => hw k n
  have e2 : b = b' := funext hb
  rw [e1, e2]

/-! ## The head -/

/-- The reference's head at row `p`: `dot_general` with the transposed head weight, the `[1]` bias made a `[1, 1]`
    block and broadcast down the rows, and the logistic written out as `1 / (1 + e^(-x))`. -/
theorem head_host (d : DotDims ⟨2, ![M, 200]⟩ ⟨2, ![200, 1]⟩ ⟨2, ![M, 1]⟩) (hd : d = DotDims.plain M 200 1)
    (h : FVec Ideal ⟨2, ![M, 200]⟩ .f32) (w : FVec Ideal ⟨2, ![200, 1]⟩ .f32) (b : FVec Ideal ⟨1, ![1]⟩ .f32)
    (hs : (⟨0, ![]⟩ : Shape).BroadcastsInDim ⟨2, ![M, 1]⟩ ![])
    (h1 : (⟨1, ![1]⟩ : Shape).BroadcastsInDim ⟨2, ![1, 1]⟩ ![1])
    (h2 : (⟨2, ![1, 1]⟩ : Shape).BroadcastsInDim ⟨2, ![M, 1]⟩ ![0, 1]) (p : Fin M) :
    Host.divf (broadcastInDim ⟨2, ![M, 1]⟩ ![] hs (constant (F := Ideal) ⟨0, ![]⟩ .f32 0x3F800000#32))
        (addf (broadcastInDim ⟨2, ![M, 1]⟩ ![] hs (constant (F := Ideal) ⟨0, ![]⟩ .f32 0x3F800000#32))
          (Host.exp (Host.negf (addf (Host.dotGeneral d none h w)
            (broadcastInDim ⟨2, ![M, 1]⟩ ![0, 1] h2 (broadcastInDim ⟨2, ![1, 1]⟩ ![1] h1 b)))))) (ix2 p (0 : Fin 1))
      = head (fun k => h (ix2 p k)) (fun k => w (ix2 k (0 : Fin 1))) (b (ix1 (0 : Fin 1))) := by
  have one : broadcastInDim ⟨2, ![M, 1]⟩ ![] hs (constant (F := Ideal) ⟨0, ![]⟩ .f32 0x3F800000#32) (ix2 p (0 : Fin 1)) = (1 : EReal) :=
    (broadcastInDim_scalar_apply hs _ _).trans Ideal.ofBits_one_f32
  have eb : broadcastInDim ⟨2, ![1, 1]⟩ ![1] h1 b (ix2 (0 : Fin 1) (0 : Fin 1)) = b (ix1 (0 : Fin 1)) :=
    broadcastInDim_apply ![1] h1 b (ix2 (0 : Fin 1) (0 : Fin 1)) (ix1 (0 : Fin 1)) (fun c => by
      match c with
      | ⟨0, _⟩ => show (0 : Nat) = if (1 : Nat) = 1 then 0 else 0; rw [if_pos rfl])
  simp only [hostDivf_apply, addf_apply, Cert.RowOps.hostExp_apply, Cert.RowOps.hostNegf_apply]
  rw [one, dotGeneral_entry d hd, broadcastInDim_oneRow_apply, eb]
  rfl

end Cert.RowGates

end
-- ==== Proof.KernelRow.lean ====
/-
  The kernel's body on one block of 2048 rows, read at one row.

  The body's one store writes a pure function of the eleven loaded blocks: the row block `X` of `x`, the four
  transposed input-to-gate weights, the four summed biases as `[1, 400]` rows, the transposed head weight and the
  head bias. Row `p` of what it stores is `RowNet.net` of row `p` of `X`, the weights read as `W (k, n)` and
  the biases as `B (0, n)`: the first layer's output (the first named part of the body) is a `RowNet.layer` of the
  row; the second layer's forward pre-activations are a product with that output plus a bias row (the second and
  third named parts); the rest (the last part) is the forward cell, the whole reverse direction, the join and the
  head.
-/
import proofs.«147335_j76656576299321_1_alg».proof.Proof.Gen.KernelIdeal.Skeleton
import proofs.«147335_j76656576299321_1_alg».proof.Proof.RowGates

noncomputable section

open Idealize.ShloMosaic Idealize.ShloMosaic.ValueIdx

namespace Cert.KernelRow

open Cert.KernelIdeal Cert.KernelIdeal.Gen Cert.RowNet Cert.RowOps Cert.RowGates

variable [Cert.KernelIdeal.Facts]

variable (X : Vec Ideal S2048x216 .f32) (W0f W0b : Vec Ideal S216x400 .f32) (B0f B0b : Vec Ideal S1x400 .f32)
  (W1f W1b : Vec Ideal S200x400 .f32) (B1f B1b : Vec Ideal S1x400 .f32) (Wo : Vec Ideal S200x1 .f32) (Bo : Vec Ideal S1x1 .f32)

/-- The first layer's output block, at row `p`: both directions of the first layer on row `p` of `X`. -/
theorem layer0_row (p : Fin 2048) (k : Fin 200) :
    k0_pay2 (F := Ideal) X W0f B0f W0b B0b (ix2 p k)
      = layer (fun i => X (ix2 p i)) (fun i n => W0f (ix2 i n)) (fun n => B0f (ix2 (0 : Fin 1) n))
          (fun i n => W0b (ix2 i n)) (fun n => B0b (ix2 (0 : Fin 1) n)) k := by
  unfold k0_pay2
  refine (join_apply _ _ _ p k).trans ?_
  unfold layer
  congr 1
  · funext j
    refine (cell_kernel _ _ _ _ p j).trans (congrArg (fun g => cell g j) (funext fun n => ?_))
    exact gate_kernel _ rfl X W0f B0f _ _ _ p n
  · funext j
    refine (cell_kernel _ _ _ _ p j).trans (congrArg (fun g => cell g j) (funext fun n => ?_))
    exact gate_kernel _ rfl X W0b B0b _ _ _ p n

/-- The second layer's forward product, at entry `(p, n)`. -/
theorem fwd1_product (p : Fin 2048) (n : Fin 400) :
    k0_pay3 (F := Ideal) X W0f B0f W0b B0b W1f (ix2 p n)
      = ∑ k : Fin 200, k0_pay2 (F := Ideal) X W0f B0f W0b B0b (ix2 p k) * W1f (ix2 k n) := by
  unfold k0_pay3
  rw [shapeCast_self]
  exact matmul_zero_entry _ rfl none _ _ p n

/-- The second layer's forward bias laid down the rows, at entry `(p, n)`. -/
theorem fwd1_bias (p : Fin 2048) (n : Fin 400) : k0_pay4 (F := Ideal) B1f (ix2 p n) = B1f (ix2 (0 : Fin 1) n) := by
  unfold k0_pay4
  rw [shapeCast_self]
  exact broadcastTo_1b_ab_apply _ _ p n

/-- The stored block at row `p`, over ANY first-layer output `h`, forward product `q` and forward bias `b`:
    the forward cell of `q + b`, the reverse direction on `h`, the join and the head. -/
theorem tail_row (h : FVec Ideal S2048x200 .f32) (q b : FVec Ideal S2048x400 .f32) (p : Fin 2048) :
    k0_pay1 (F := Ideal) h q b W1b B1b Wo Bo (ix2 p (0 : Fin 1))
      = head (join (cell (fun n => q (ix2 p n) + b (ix2 p n)))
            (cell (gate (fun i => h (ix2 p i)) (fun i n => W1b (ix2 i n)) (fun n => B1b (ix2 (0 : Fin 1) n)))))
          (fun i => Wo (ix2 i (0 : Fin 1))) (Bo (ix2 (0 : Fin 1) (0 : Fin 1))) := by
  unfold k0_pay1
  simp only [shapeCast_self]
  rw [logistic_apply, addf_apply, matmul_zero_entry dot_S2048x200_S200x1_S2048x1_1_0_0_1_n_n rfl, broadcastTo_1b_ab_apply]
  unfold head
  congr 2
  refine Finset.sum_congr rfl fun i _ => ?_
  congr 1
  refine (join_apply _ _ _ p i).trans ?_
  congr 1
  · funext j
    exact cell_kernel _ _ _ _ p j
  · funext j
    refine (cell_kernel _ _ _ _ p j).trans (congrArg (fun g => cell g j) (funext fun n => ?_))
    exact gate_kernel _ rfl h W1b B1b _ _ _ p n

/-- THE BODY AT ONE ROW: row `p` of the stored block is the network on row `p` of `X`. -/
theorem payload_row (p : Fin 2048) :
    k0_pay1 (F := Ideal) (k0_pay2 X W0f B0f W0b B0b) (k0_pay3 X W0f B0f W0b B0b W1f) (k0_pay4 B1f) W1b B1b Wo Bo (ix2 p (0 : Fin 1))
      = net (fun i => X (ix2 p i)) (fun i n => W0f (ix2 i n)) (fun n => B0f (ix2 (0 : Fin 1) n))
          (fun i n => W0b (ix2 i n)) (fun n => B0b (ix2 (0 : Fin 1) n))
          (fun i n => W1f (ix2 i n)) (fun n => B1f (ix2 (0 : Fin 1) n))
          (fun i n => W1b (ix2 i n)) (fun n => B1b (ix2 (0 : Fin 1) n))
          (fun i => Wo (ix2 i (0 : Fin 1))) (Bo (ix2 (0 : Fin 1) (0 : Fin 1))) := by
  rw [tail_row]
  unfold net layer
  have hL : (fun i => k0_pay2 (F := Ideal) X W0f B0f W0b B0b (ix2 p i))
      = layer (fun i => X (ix2 p i)) (fun i n => W0f (ix2 i n)) (fun n => B0f (ix2 (0 : Fin 1) n))
          (fun i n => W0b (ix2 i n)) (fun n => B0b (ix2 (0 : Fin 1) n)) := funext fun k => layer0_row X W0f W0b B0f B0b p k
  have hF : (fun n => k0_pay3 (F := Ideal) X W0f B0f W0b B0b W1f (ix2 p n) + k0_pay4 (F := Ideal) B1f (ix2 p n))
      = gate (fun i => k0_pay2 (F := Ideal) X W0f B0f W0b B0b (ix2 p i)) (fun i n => W1f (ix2 i n)) (fun n => B1f (ix2 (0 : Fin 1) n)) :=
    funext fun n => by rw [fwd1_product, fwd1_bias]; rfl
  rw [hF, hL]
  rfl

end Cert.KernelRow

end
-- ==== Proof.Result.lean ====
/-
  The result array as one function of the nineteen argument arrays.

  Entry `(r, 0)` of the `[131072, 1]` result is the network (`RowNet.net`) on row `r` of `x`, with

  * each input-to-gate weight `w_ih` of shape `[400, D]` read transposed, `(k, n) ↦ w_ih (n, k)`;
  * each gate bias the sum `b_ih n + b_hh n` of the layer's two bias vectors;
  * the head weight `w_out` of shape `[1, 200]` read as `k ↦ w_out (0, k)`, and the head bias `b_out 0`.

  The hidden-to-hidden weights `w_hh` do not occur: the state they would multiply is zero.
-/
import proofs.«147335_j76656576299321_1_alg».proof.Proof.RowNet

noncomputable section

open Idealize.ShloMosaic Idealize.ShloMosaic.ValueIdx

namespace Cert.Result

open Cert.RowNet

/-- The result at row `r`. -/
def resultAt (x : (⟨2, ![131072, 216]⟩ : Shape).Idx → EReal)
    (wih0f : (⟨2, ![400, 216]⟩ : Shape).Idx → EReal) (bih0f bhh0f : (⟨1, ![400]⟩ : Shape).Idx → EReal)
    (wih0b : (⟨2, ![400, 216]⟩ : Shape).Idx → EReal) (bih0b bhh0b : (⟨1, ![400]⟩ : Shape).Idx → EReal)
    (wih1f : (⟨2, ![400, 200]⟩ : Shape).Idx → EReal) (bih1f bhh1f : (⟨1, ![400]⟩ : Shape).Idx → EReal)
    (wih1b : (⟨2, ![400, 200]⟩ : Shape).Idx → EReal) (bih1b bhh1b : (⟨1, ![400]⟩ : Shape).Idx → EReal)
    (wout : (⟨2, ![1, 200]⟩ : Shape).Idx → EReal) (bout : (⟨1, ![1]⟩ : Shape).Idx → EReal) (r : Fin 131072) : EReal :=
  net (fun k => x (ix2 r k))
    (fun k n => wih0f (ix2 n k)) (fun n => bih0f (ix1 n) + bhh0f (ix1 n))
    (fun k n => wih0b (ix2 n k)) (fun n => bih0b (ix1 n) + bhh0b (ix1 n))
    (fun k n => wih1f (ix2 n k)) (fun n => bih1f (ix1 n) + bhh1f (ix1 n))
    (fun k n => wih1b (ix2 n k)) (fun n => bih1b (ix1 n) + bhh1b (ix1 n))
    (fun k => wout (ix2 (0 : Fin 1) k)) (bout (ix1 (0 : Fin 1)))

/-- The whole `[131072, 1]` result. -/
def result (x : (⟨2, ![131072, 216]⟩ : Shape).Idx → EReal)
    (wih0f : (⟨2, ![400, 216]⟩ : Shape).Idx → EReal) (bih0f bhh0f : (⟨1, ![400]⟩ : Shape).Idx → EReal)
    (wih0b : (⟨2, ![400, 216]⟩ : Shape).Idx → EReal) (bih0b bhh0b : (⟨1, ![400]⟩ : Shape).Idx → EReal)
    (wih1f : (⟨2, ![400, 200]⟩ : Shape).Idx → EReal) (bih1f bhh1f : (⟨1, ![400]⟩ : Shape).Idx → EReal)
    (wih1b : (⟨2, ![400, 200]⟩ : Shape).Idx → EReal) (bih1b bhh1b : (⟨1, ![400]⟩ : Shape).Idx → EReal)
    (wout : (⟨2, ![1, 200]⟩ : Shape).Idx → EReal) (bout : (⟨1, ![1]⟩ : Shape).Idx → EReal) :
    (⟨2, ![131072, 1]⟩ : Shape).Idx → EReal :=
  fun i => resultAt x wih0f bih0f bhh0f wih0b bih0b bhh0b wih1f bih1f bhh1f wih1b bih1b bhh1b wout bout ⟨(i 0).val, (i 0).isLt⟩

end Cert.Result

end
-- ==== Proof.KernelArray.lean ====
/-
  From the kernel's blocks to the whole result array.

  The grid has 64 points. Point `t` stages rows `2048 t … 2048 t + 2047` of `x` and, whole, the ten small arrays
  the host operations before the call made out of the weights and biases (each weight transposed, each pair of bias
  vectors summed and made a `[1, 400]` row, the head bias a `[1, 1]` block), and writes back rows
  `2048 t … 2048 t + 2047` of the `[131072, 1]` result. By `KernelRow.payload_row`, row `p` of what point `t`
  writes is the network on row `p` of its block of `x`, that is on row `2048 t + p` of `x`; read through the host
  operations, the weights and biases are those of `Result.result`. So point `t` writes block `t` of
  `Result.result` of the arguments, the 64 blocks cover the result array, and the array ends as `Result.result`.
-/
import proofs.«147335_j76656576299321_1_alg».proof.Proof.Gen.KernelIdeal.Value
import proofs.«147335_j76656576299321_1_alg».proof.Proof.KernelRow
import proofs.«147335_j76656576299321_1_alg».proof.Proof.Result
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelArray

open Cert.KernelIdeal Cert.KernelIdeal.Gen Cert.KernelIdeal.Value Cert.RowNet

variable (m : (ℓ : Loc nD τ sig) → Buf (Elt Ideal) ℓ) (ρ : Dev nD → PrngReg)

/-! ## The index maps, decided over the grid: window 0 and the output move with the point, the rest stay -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx11 : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)

theorem hz : (![0, 0] : Fin 2 → Nat) = fun _ => 0 := funext fun a => by fin_cases a <;> rfl

/-! ## Each window's block, read off its array at region entry -/

/-- Row `p` of point `t`'s block of `x` is row `2048 t + p` of `x`. -/
theorem blk0_apply (c : Dev nD) (t : Fin cfg0.N) (p : Fin 2048) (j : Fin 216) (r : Fin 131072) (hr : r.val = 2048 * t.val + p.val) :
    iblk m c 0 t (ix2 p j) = m ((c : Thread nD τ).loc main_arg0) (ix2 r j) := by
  obtain ⟨e0, e1⟩ := idx0 t
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 2) * 2048 + 1 * p.val = r.val; rw [e0, hr]; omega
  | ⟨1, _⟩ => show win0_0.index t (1 : Fin 2) * 216 + 1 * j.val = j.val; rw [e1]; omega

theorem blk1_apply (c : Dev nD) (t : Fin cfg0.N) (i : Fin 216) (j : Fin 400) :
    iblk m c 1 t (ix2 i j) = V m c main_v0 (ix2 i j) := by
  obtain ⟨e0, e1⟩ := idx1 t
  unfold iblk
  rw [View.read_apply]
  show V m c main_v0 _ = V m c main_v0 _
  congr 1
  funext a
  apply Fin.ext
  match a with
  | ⟨0, _⟩ => show win0_1.index t (0 : Fin 2) * 216 + 1 * i.val = i.val; rw [e0]; omega
  | ⟨1, _⟩ => show win0_1.index t (1 : Fin 2) * 400 + 1 * j.val = j.val; rw [e1]; omega

theorem blk2_apply (c : Dev nD) (t : Fin cfg0.N) (i : Fin 216) (j : Fin 400) :
    iblk m c 2 t (ix2 i j) = V m c main_v1 (ix2 i j) := by
  obtain ⟨e0, e1⟩ := idx2 t
  unfold iblk
  rw [View.read_apply]
  show V m c main_v1 _ = V m c main_v1 _
  congr 1
  funext a
  apply Fin.ext
  match a with
  | ⟨0, _⟩ => show win0_2.index t (0 : Fin 2) * 216 + 1 * i.val = i.val; rw [e0]; omega
  | ⟨1, _⟩ => show win0_2.index t (1 : Fin 2) * 400 + 1 * j.val = j.val; rw [e1]; omega

theorem blk3_apply (c : Dev nD) (t : Fin cfg0.N) (i : Fin 1) (j : Fin 400) :
    iblk m c 3 t (ix2 i j) = V m c main_v6 (ix2 i j) := by
  obtain ⟨e0, e1⟩ := idx3 t
  unfold iblk
  rw [View.read_apply]
  show V m c main_v6 _ = V m c main_v6 _
  congr 1
  funext a
  apply Fin.ext
  match a with
  | ⟨0, _⟩ => show win0_3.index t (0 : Fin 2) * 1 + 1 * i.val = i.val; rw [e0]; omega
  | ⟨1, _⟩ => show win0_3.index t (1 : Fin 2) * 400 + 1 * j.val = j.val; rw [e1]; omega

theorem blk4_apply (c : Dev nD) (t : Fin cfg0.N) (i : Fin 1) (j : Fin 400) :
    iblk m c 4 t (ix2 i j) = V m c main_v8 (ix2 i j) := by
  obtain ⟨e0, e1⟩ := idx4 t
  unfold iblk
  rw [View.read_apply]
  show V m c main_v8 _ = V m c main_v8 _
  congr 1
  funext a
  apply Fin.ext
  match a with
  | ⟨0, _⟩ => show win0_4.index t (0 : Fin 2) * 1 + 1 * i.val = i.val; rw [e0]; omega
  | ⟨1, _⟩ => show win0_4.index t (1 : Fin 2) * 400 + 1 * j.val = j.val; rw [e1]; omega

theorem blk5_apply (c : Dev nD) (t : Fin cfg0.N) (i : Fin 200) (j : Fin 400) :
    iblk m c 5 t (ix2 i j) = V m c main_v2 (ix2 i j) := by
  obtain ⟨e0, e1⟩ := idx5 t
  unfold iblk
  rw [View.read_apply]
  show V m c main_v2 _ = V m c main_v2 _
  congr 1
  funext a
  apply Fin.ext
  match a with
  | ⟨0, _⟩ => show win0_5.index t (0 : Fin 2) * 200 + 1 * i.val = i.val; rw [e0]; omega
  | ⟨1, _⟩ => show win0_5.index t (1 : Fin 2) * 400 + 1 * j.val = j.val; rw [e1]; omega

theorem blk6_apply (c : Dev nD) (t : Fin cfg0.N) (i : Fin 200) (j : Fin 400) :
    iblk m c 6 t (ix2 i j) = V m c main_v3 (ix2 i j) := by
  obtain ⟨e0, e1⟩ := idx6 t
  unfold iblk
  rw [View.read_apply]
  show V m c main_v3 _ = V m c main_v3 _
  congr 1
  funext a
  apply Fin.ext
  match a with
  | ⟨0, _⟩ => show win0_6.index t (0 : Fin 2) * 200 + 1 * i.val = i.val; rw [e0]; omega
  | ⟨1, _⟩ => show win0_6.index t (1 : Fin 2) * 400 + 1 * j.val = j.val; rw [e1]; omega

theorem blk7_apply (c : Dev nD) (t : Fin cfg0.N) (i : Fin 1) (j : Fin 400) :
    iblk m c 7 t (ix2 i j) = V m c main_v10 (ix2 i j) := by
  obtain ⟨e0, e1⟩ := idx7 t
  unfold iblk
  rw [View.read_apply]
  show V m c main_v10 _ = V m c main_v10 _
  congr 1
  funext a
  apply Fin.ext
  match a with
  | ⟨0, _⟩ => show win0_7.index t (0 : Fin 2) * 1 + 1 * i.val = i.val; rw [e0]; omega
  | ⟨1, _⟩ => show win0_7.index t (1 : Fin 2) * 400 + 1 * j.val = j.val; rw [e1]; omega

theorem blk8_apply (c : Dev nD) (t : Fin cfg0.N) (i : Fin 1) (j : Fin 400) :
    iblk m c 8 t (ix2 i j) = V m c main_v12 (ix2 i j) := by
  obtain ⟨e0, e1⟩ := idx8 t
  unfold iblk
  rw [View.read_apply]
  show V m c main_v12 _ = V m c main_v12 _
  congr 1
  funext a
  apply Fin.ext
  match a with
  | ⟨0, _⟩ => show win0_8.index t (0 : Fin 2) * 1 + 1 * i.val = i.val; rw [e0]; omega
  | ⟨1, _⟩ => show win0_8.index t (1 : Fin 2) * 400 + 1 * j.val = j.val; rw [e1]; omega

theorem blk9_apply (c : Dev nD) (t : Fin cfg0.N) (i : Fin 200) (j : Fin 1) :
    iblk m c 9 t (ix2 i j) = V m c main_v4 (ix2 i j) := by
  obtain ⟨e0, e1⟩ := idx9 t
  unfold iblk
  rw [View.read_apply]
  show V m c main_v4 _ = V m c main_v4 _
  congr 1
  funext a
  apply Fin.ext
  match a with
  | ⟨0, _⟩ => show win0_9.index t (0 : Fin 2) * 200 + 1 * i.val = i.val; rw [e0]; omega
  | ⟨1, _⟩ => show win0_9.index t (1 : Fin 2) * 1 + 1 * j.val = j.val; rw [e1]; omega

theorem blk10_apply (c : Dev nD) (t : Fin cfg0.N) (i : Fin 1) (j : Fin 1) :
    iblk m c 10 t (ix2 i j) = V m c main_v13 (ix2 i j) := by
  obtain ⟨e0, e1⟩ := idx10 t
  unfold iblk
  rw [View.read_apply]
  show V m c main_v13 _ = V m c main_v13 _
  congr 1
  funext a
  apply Fin.ext
  match a with
  | ⟨0, _⟩ => show win0_10.index t (0 : Fin 2) * 1 + 1 * i.val = i.val; rw [e0]; omega
  | ⟨1, _⟩ => show win0_10.index t (1 : Fin 2) * 1 + 1 * j.val = j.val; rw [e1]; omega

/-! ## The small arrays at region entry, entry by entry, in terms of the arguments -/

theorem w0f_entry (c : Dev nD) (k : Fin 216) (n : Fin 400) : V m c main_v0 (ix2 k n) = (m ((c : Thread nD τ).loc main_arg1)) (ix2 n k) := by
  have e : (V m c main_v0 : S216x400.Idx → EReal) = transpose S216x400 [1, 0] (m ((c : Thread nD τ).loc main_arg1)) transposes_S400x216_S216x400_1_0 := by
    dsimp only [V, hostOps0]; after_results
  rw [e]
  exact transpose_ix2_apply _ _ k n

theorem w0b_entry (c : Dev nD) (k : Fin 216) (n : Fin 400) : V m c main_v1 (ix2 k n) = (m ((c : Thread nD τ).loc main_arg5)) (ix2 n k) := by
  have e : (V m c main_v1 : S216x400.Idx → EReal) = transpose S216x400 [1, 0] (m ((c : Thread nD τ).loc main_arg5)) transposes_S400x216_S216x400_1_0 := by
    dsimp only [V, hostOps0]; after_results
  rw [e]
  exact transpose_ix2_apply _ _ k n

theorem w1f_entry (c : Dev nD) (k : Fin 200) (n : Fin 400) : V m c main_v2 (ix2 k n) = (m ((c : Thread nD τ).loc main_arg9)) (ix2 n k) := by
  have e : (V m c main_v2 : S200x400.Idx → EReal) = transpose S200x400 [1, 0] (m ((c : Thread nD τ).loc main_arg9)) transposes_S400x200_S200x400_1_0 := by
    dsimp only [V, hostOps0]; after_results
  rw [e]
  exact transpose_ix2_apply _ _ k n

theorem w1b_entry (c : Dev nD) (k : Fin 200) (n : Fin 400) : V m c main_v3 (ix2 k n) = (m ((c : Thread nD τ).loc main_arg13)) (ix2 n k) := by
  have e : (V m c main_v3 : S200x400.Idx → EReal) = transpose S200x400 [1, 0] (m ((c : Thread nD τ).loc main_arg13)) transposes_S400x200_S200x400_1_0 := by
    dsimp only [V, hostOps0]; after_results
  rw [e]
  exact transpose_ix2_apply _ _ k n

theorem b0f_entry (c : Dev nD) (n : Fin 400) : V m c main_v6 (ix2 (0 : Fin 1) n) = addf (F := Ideal) (s := S400) (φ := .f32) (m ((c : Thread nD τ).loc main_arg3)) (m ((c : Thread nD τ).loc main_arg4)) (ix1 n) := by
  have e : (V m c main_v6 : S1x400.Idx → EReal) = shapeCast S1x400 (addf (F := Ideal) (s := S400) (φ := .f32) (m ((c : Thread nD τ).loc main_arg3)) (m ((c : Thread nD τ).loc main_arg4))) shapeCasts_S400_S1x400 := by
    dsimp only [V, hostOps0]; after_results; rfl
  rw [e]
  exact shapeCast_a_1a_apply _ _ (0 : Fin 1) n

theorem b0b_entry (c : Dev nD) (n : Fin 400) : V m c main_v8 (ix2 (0 : Fin 1) n) = addf (F := Ideal) (s := S400) (φ := .f32) (m ((c : Thread nD τ).loc main_arg7)) (m ((c : Thread nD τ).loc main_arg8)) (ix1 n) := by
  have e : (V m c main_v8 : S1x400.Idx → EReal) = shapeCast S1x400 (addf (F := Ideal) (s := S400) (φ := .f32) (m ((c : Thread nD τ).loc main_arg7)) (m ((c : Thread nD τ).loc main_arg8))) shapeCasts_S400_S1x400 := by
    dsimp only [V, hostOps0]; after_results; rfl
  rw [e]
  exact shapeCast_a_1a_apply _ _ (0 : Fin 1) n

theorem b1f_entry (c : Dev nD) (n : Fin 400) : V m c main_v10 (ix2 (0 : Fin 1) n) = addf (F := Ideal) (s := S400) (φ := .f32) (m ((c : Thread nD τ).loc main_arg11)) (m ((c : Thread nD τ).loc main_arg12)) (ix1 n) := by
  have e : (V m c main_v10 : S1x400.Idx → EReal) = shapeCast S1x400 (addf (F := Ideal) (s := S400) (φ := .f32) (m ((c : Thread nD τ).loc main_arg11)) (m ((c : Thread nD τ).loc main_arg12))) shapeCasts_S400_S1x400 := by
    dsimp only [V, hostOps0]; after_results; rfl
  rw [e]
  exact shapeCast_a_1a_apply _ _ (0 : Fin 1) n

theorem b1b_entry (c : Dev nD) (n : Fin 400) : V m c main_v12 (ix2 (0 : Fin 1) n) = addf (F := Ideal) (s := S400) (φ := .f32) (m ((c : Thread nD τ).loc main_arg15)) (m ((c : Thread nD τ).loc main_arg16)) (ix1 n) := by
  have e : (V m c main_v12 : S1x400.Idx → EReal) = shapeCast S1x400 (addf (F := Ideal) (s := S400) (φ := .f32) (m ((c : Thread nD τ).loc main_arg15)) (m ((c : Thread nD τ).loc main_arg16))) shapeCasts_S400_S1x400 := by
    dsimp only [V, hostOps0]; after_results; rfl
  rw [e]
  exact shapeCast_a_1a_apply _ _ (0 : Fin 1) n

theorem wo_entry (c : Dev nD) (k : Fin 200) : V m c main_v4 (ix2 k (0 : Fin 1)) = (m ((c : Thread nD τ).loc main_arg17)) (ix2 (0 : Fin 1) k) := by
  have e : (V m c main_v4 : S200x1.Idx → EReal) = transpose S200x1 [1, 0] (m ((c : Thread nD τ).loc main_arg17)) transposes_S1x200_S200x1_1_0 := by
    dsimp only [V, hostOps0]; after_results
  rw [e]
  exact transpose_ix2_apply _ _ k (0 : Fin 1)

theorem bo_entry (c : Dev nD) : V m c main_v13 (ix2 (0 : Fin 1) (0 : Fin 1)) = (m ((c : Thread nD τ).loc main_arg18)) (ix1 (0 : Fin 1)) := by
  have e : (V m c main_v13 : S1x1.Idx → EReal) = shapeCast S1x1 (m ((c : Thread nD τ).loc main_arg18)) shapeCasts_S1_S1x1 := by
    dsimp only [V, hostOps0]; after_results; rfl
  rw [e]
  exact shapeCast_a_1a_apply _ _ (0 : Fin 1) (0 : Fin 1)

/-! ## What each point writes, the cover, and the run -/

/-- The network's eleven row readings agree entry by entry. -/
theorem net_congr {x x' : Fin 216 → EReal} {w0f w0f' w0b w0b' : Fin 216 → Fin 400 → EReal} {b0f b0f' b0b b0b' : Fin 400 → EReal}
    {w1f w1f' w1b w1b' : Fin 200 → Fin 400 → EReal} {b1f b1f' b1b b1b' : Fin 400 → EReal} {wo wo' : Fin 200 → EReal} {bo bo' : EReal}
    (hx : ∀ i, x i = x' i) (h1 : ∀ i n, w0f i n = w0f' i n) (h2 : ∀ n, b0f n = b0f' n) (h3 : ∀ i n, w0b i n = w0b' i n)
    (h4 : ∀ n, b0b n = b0b' n) (h5 : ∀ i n, w1f i n = w1f' i n) (h6 : ∀ n, b1f n = b1f' n) (h7 : ∀ i n, w1b i n = w1b' i n)
    (h8 : ∀ n, b1b n = b1b' n) (h9 : ∀ i, wo i = wo' i) (h10 : bo = bo') :
    net x w0f b0f w0b b0b w1f b1f w1b b1b wo bo = net x' w0f' b0f' w0b' b0b' w1f' b1f' w1b' b1b' wo' bo' := by
  obtain rfl : x = x' := funext hx
  obtain rfl : w0f = w0f' := funext fun i => funext fun n => h1 i n
  obtain rfl : b0f = b0f' := funext h2
  obtain rfl : w0b = w0b' := funext fun i => funext fun n => h3 i n
  obtain rfl : b0b = b0b' := funext h4
  obtain rfl : w1f = w1f' := funext fun i => funext fun n => h5 i n
  obtain rfl : b1f = b1f' := funext h6
  obtain rfl : w1b = w1b' := funext fun i => funext fun n => h7 i n
  obtain rfl : b1b = b1b' := funext h8
  obtain rfl : wo = wo' := funext h9
  subst h10
  rfl

/-- The result array as the function of the arguments that `Result.result` is. -/
abbrev final (c : Dev nD) : Buf (Elt Ideal) ((c : Thread nD τ).loc main_v14) :=
  Cert.Result.result (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg11)) (m ((c : Thread nD τ).loc main_arg12)) (m ((c : Thread nD τ).loc main_arg13)) (m ((c : Thread nD τ).loc main_arg15)) (m ((c : Thread nD τ).loc main_arg16)) (m ((c : Thread nD τ).loc main_arg17)) (m ((c : Thread nD τ).loc main_arg18))

/-- WHAT POINT `t` WRITES BACK is block `t` of `final`. -/
theorem flushed_eq (c : Dev nD) (t : Fin cfg0.N) :
    (dats m 0 c).flushed 11 t = ((cfg0.win 11).blk t).view.read (Elt Ideal) (final m c) := by
  rw [flushed11]
  unfold out0_11
  rw [View.canon_unit_zero hz]
  simp only [View.ld_unit_zero (S := S2048x216) hz, View.ld_unit_zero (S := S216x400) hz, View.ld_unit_zero (S := S1x400) hz,
    View.ld_unit_zero (S := S200x400) hz, View.ld_unit_zero (S := S200x1) hz, View.ld_unit_zero (S := S1x1) hz]
  obtain ⟨e0, e1⟩ := idx11 t
  have hN : cfg0.N = 64 := N_0
  have ht : t.val < 64 := by have := t.isLt; omega
  funext y
  obtain ⟨p, z, rfl⟩ : ∃ (p : Fin 2048) (z : Fin 1), y = ix2 p z := ⟨y 0, y 1, eq_ix2 y⟩
  obtain rfl : z = 0 := Subsingleton.elim _ _
  have hp := p.isLt
  have hrow : 2048 * t.val + p.val < 131072 := by omega
  have hemb : ((cfg0.win 11).blk t).view.emb (ix2 p (0 : Fin 1)) = ix2 (⟨2048 * t.val + p.val, hrow⟩ : Fin 131072) (0 : Fin 1) := by
    funext a
    apply Fin.ext
    match a with
    | ⟨0, _⟩ => show win0_11.index t (0 : Fin 2) * 2048 + 1 * p.val = 2048 * t.val + p.val; rw [e0]; omega
    | ⟨1, _⟩ => show win0_11.index t (1 : Fin 2) * 1 + 1 * 0 = 0; rw [e1]
  show _ = final m c (((cfg0.win 11).blk t).view.emb (ix2 p (0 : Fin 1)))
  rw [hemb]
  refine (Cert.KernelRow.payload_row (iblk m c 0 t) (iblk m c 1 t) (iblk m c 2 t) (iblk m c 3 t) (iblk m c 4 t) (iblk m c 5 t)
    (iblk m c 6 t) (iblk m c 7 t) (iblk m c 8 t) (iblk m c 9 t) (iblk m c 10 t) p).trans ?_
  show _ = Cert.Result.resultAt (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg11)) (m ((c : Thread nD τ).loc main_arg12)) (m ((c : Thread nD τ).loc main_arg13)) (m ((c : Thread nD τ).loc main_arg15)) (m ((c : Thread nD τ).loc main_arg16)) (m ((c : Thread nD τ).loc main_arg17)) (m ((c : Thread nD τ).loc main_arg18)) ⟨2048 * t.val + p.val, hrow⟩
  unfold Cert.Result.resultAt
  refine net_congr (fun i => blk0_apply m c t p i _ rfl)
    (fun i n => (blk1_apply m c t i n).trans (w0f_entry m c i n)) (fun n => (blk3_apply m c t 0 n).trans (b0f_entry m c n))
    (fun i n => (blk2_apply m c t i n).trans (w0b_entry m c i n)) (fun n => (blk4_apply m c t 0 n).trans (b0b_entry m c n))
    (fun i n => (blk5_apply m c t i n).trans (w1f_entry m c i n)) (fun n => (blk7_apply m c t 0 n).trans (b1f_entry m c n))
    (fun i n => (blk6_apply m c t i n).trans (w1b_entry m c i n)) (fun n => (blk8_apply m c t 0 n).trans (b1b_entry m c n))
    (fun i => (blk9_apply m c t i 0).trans (wo_entry m c i)) ((blk10_apply m c t 0 0).trans (bo_entry m c))

/-- Every index of the result array is in the block of the point its row falls to. -/
theorem cover (i : S131072x1.Idx) : ∃ t : Fin cfg0.N, (cfg0.win 11).flush t = true ∧ i ∈ ((cfg0.win 11).blk t).view.set := by
  have hi0 : (i 0).val < 131072 := (i 0).isLt
  have hi1 : (i 1).val < 1 := (i 1).isLt
  have hN : cfg0.N = 64 := N_0
  let t : Fin cfg0.N := ⟨(i 0).val / 2048, by omega⟩
  obtain ⟨e0, e1⟩ := idx11 t
  refine ⟨t, flush0_11 t, ?_⟩
  show i ∈ ((View.whole main_v14).slice (win0_11.rect t)).set
  rw [View.set_slice_whole, Rect.mem_set_unit]
  intro a
  match a with
  | ⟨0, _⟩ =>
    show win0_11.index t (0 : Fin 2) * 2048 ≤ (i 0).val ∧ (i 0).val < win0_11.index t (0 : Fin 2) * 2048 + 2048
    rw [e0]; show (i 0).val / 2048 * 2048 ≤ (i 0).val ∧ (i 0).val < (i 0).val / 2048 * 2048 + 2048; omega
  | ⟨1, _⟩ =>
    show win0_11.index t (1 : Fin 2) * 1 ≤ (i 1).val ∧ (i 1).val < win0_11.index t (1 : Fin 2) * 1 + 1
    rw [e1]; omega

/-- THE RESULT ARRAY after the run. -/
theorem final_eq (c : Dev nD) : (dats m 0 c).arrAt 11 cfg0.N = final m c :=
  (dats m 0 c).arrAt_eq_of_cover 11 (final m c) (fun t _ => flushed_eq m c t) cover

/-- The kernel's run re-posted: the result array at `final`, the arguments unchanged. -/
theorem run : θ_run defs (onTc (τ := τ) (main (F := Ideal))) ⟨m, fun _ => 0, ρ⟩ fun r => ∀ c : Dev nD,
      r.2.mem ((c : Thread nD τ).loc main_v14) = final m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨(h c).1.trans (final_eq m c), (h c).2⟩) (run_blocks m ρ)

end Cert.KernelArray

end
-- ==== Proof.ReferenceRow.lean ====
/-
  The reference program read at one row.

  The reference applies the same operations to all 131072 rows at once. Stage by stage, each intermediate array at
  row `r` is the corresponding row function of `RowNet` of the previous stage's row `r`:

  * a gate pre-activation array is `gate` of the row of its input, the weight read transposed and the bias the sum
    of the two bias vectors;
  * a cell's output array is `cell` of the row of pre-activations (the logistic written out, `RowOps.cell_host`);
  * a layer's output, the two directions joined along the columns, is `layer` of the row of the layer's input;
  * the result is `head` of the row of the second layer's output.

  Chained, entry `(r, 0)` of the reference's result is `Result.resultAt … r`, and the whole result array is
  `Result.result` of the arguments.
-/
import proofs.«147335_j76656576299321_1_alg».proof.Proof.Gen.ReferenceIdeal.Read
import proofs.«147335_j76656576299321_1_alg».proof.Proof.RowGates
import proofs.«147335_j76656576299321_1_alg».proof.Proof.Result

noncomputable section

open Idealize.ShloMosaic Idealize.ShloMosaic.ValueIdx

namespace Cert.ReferenceRow

open Cert.ReferenceIdeal Cert.ReferenceIdeal.Read Cert.RowNet Cert.RowOps Cert.RowGates

variable [Cert.ReferenceIdeal.Facts]

variable (x0 : (⟨S131072x216, .f32⟩ : BufTy).Contents (Elt Ideal))
  (x1 x5 : (⟨S400x216, .f32⟩ : BufTy).Contents (Elt Ideal)) (x9 x13 : (⟨S400x200, .f32⟩ : BufTy).Contents (Elt Ideal))
  (x3 x4 x7 x8 x11 x12 x15 x16 : (⟨S400, .f32⟩ : BufTy).Contents (Elt Ideal))
  (x17 : (⟨S1x200, .f32⟩ : BufTy).Contents (Elt Ideal)) (x18 : (⟨S1, .f32⟩ : BufTy).Contents (Elt Ideal))

/-! ## The first layer -/

theorem gates0f_row (r : Fin 131072) (n : Fin 400) :
    val_main_v5 (F := Ideal) x0 x1 x3 x4 (ix2 r n)
      = gate (fun k => x0 (ix2 r k)) (fun k n => x1 (ix2 n k)) (fun n => x3 (ix1 n) + x4 (ix1 n)) n := by
  unfold val_main_v5 val_main_v1 val_main_v0 val_main_v4 val_main_v3 val_main_v2
  exact (gate_host _ rfl x0 _ _ _ _ r n).trans
    (gate_congr _ (fun k n => transpose_ix2_apply x1 _ k n) (fun n => rfl) n)

theorem gates0b_row (r : Fin 131072) (n : Fin 400) :
    val_main_v31 (F := Ideal) x0 x5 x7 x8 (ix2 r n)
      = gate (fun k => x0 (ix2 r k)) (fun k n => x5 (ix2 n k)) (fun n => x7 (ix1 n) + x8 (ix1 n)) n := by
  unfold val_main_v31 val_main_v27 val_main_v26 val_main_v30 val_main_v29 val_main_v28
  exact (gate_host _ rfl x0 _ _ _ _ r n).trans
    (gate_congr _ (fun k n => transpose_ix2_apply x5 _ k n) (fun n => rfl) n)

theorem cell0f_row (r : Fin 131072) (j : Fin 100) :
    val_main_v25 (F := Ideal) x0 x1 x3 x4 (ix2 r j) = cell (fun n => val_main_v5 (F := Ideal) x0 x1 x3 x4 (ix2 r n)) j := by
  unfold val_main_v25 val_main_v23 val_main_v22 val_main_cst_2 val_main_v21 val_main_v20 val_main_cst_1 val_main_v19 val_main_v18 val_main_v9 val_main_v24 val_main_v17 val_main_v15 val_main_v14 val_main_cst_0 val_main_v13 val_main_v12 val_main_cst val_main_v11 val_main_v10 val_main_v6 val_main_v16 val_main_v8
  exact cell_host _ _ _ _ _ r j

theorem cell0b_row (r : Fin 131072) (j : Fin 100) :
    val_main_v51 (F := Ideal) x0 x5 x7 x8 (ix2 r j) = cell (fun n => val_main_v31 (F := Ideal) x0 x5 x7 x8 (ix2 r n)) j := by
  unfold val_main_v51 val_main_v49 val_main_v48 val_main_cst_6 val_main_v47 val_main_v46 val_main_cst_5 val_main_v45 val_main_v44 val_main_v35 val_main_v50 val_main_v43 val_main_v41 val_main_v40 val_main_cst_4 val_main_v39 val_main_v38 val_main_cst_3 val_main_v37 val_main_v36 val_main_v32 val_main_v42 val_main_v34
  exact cell_host _ _ _ _ _ r j

theorem layer0_row (r : Fin 131072) (k : Fin 200) :
    val_main_v52 (F := Ideal) x0 x1 x3 x4 x5 x7 x8 (ix2 r k)
      = layer (fun i => x0 (ix2 r i)) (fun i n => x1 (ix2 n i)) (fun n => x3 (ix1 n) + x4 (ix1 n))
          (fun i n => x5 (ix2 n i)) (fun n => x7 (ix1 n) + x8 (ix1 n)) k := by
  unfold val_main_v52
  refine (join_apply _ _ _ r k).trans ?_
  unfold layer
  congr 1
  · funext j
    exact (cell0f_row x0 x1 x3 x4 r j).trans (congrArg (fun g => cell g j) (funext fun n => gates0f_row x0 x1 x3 x4 r n))
  · funext j
    exact (cell0b_row x0 x5 x7 x8 r j).trans (congrArg (fun g => cell g j) (funext fun n => gates0b_row x0 x5 x7 x8 r n))

/-! ## The second layer -/

theorem gates1f_row (r : Fin 131072) (n : Fin 400) :
    val_main_v58 (F := Ideal) x0 x1 x3 x4 x5 x7 x8 x9 x11 x12 (ix2 r n)
      = gate (fun k => val_main_v52 (F := Ideal) x0 x1 x3 x4 x5 x7 x8 (ix2 r k)) (fun k n => x9 (ix2 n k)) (fun n => x11 (ix1 n) + x12 (ix1 n)) n := by
  unfold val_main_v58 val_main_v54 val_main_v53 val_main_v57 val_main_v56 val_main_v55
  exact (gate_host _ rfl (val_main_v52 (F := Ideal) x0 x1 x3 x4 x5 x7 x8) _ _ _ _ r n).trans
    (gate_congr _ (fun k n => transpose_ix2_apply x9 _ k n) (fun n => rfl) n)

theorem gates1b_row (r : Fin 131072) (n : Fin 400) :
    val_main_v84 (F := Ideal) x0 x1 x3 x4 x5 x7 x8 x13 x15 x16 (ix2 r n)
      = gate (fun k => val_main_v52 (F := Ideal) x0 x1 x3 x4 x5 x7 x8 (ix2 r k)) (fun k n => x13 (ix2 n k)) (fun n => x15 (ix1 n) + x16 (ix1 n)) n := by
  unfold val_main_v84 val_main_v80 val_main_v79 val_main_v83 val_main_v82 val_main_v81
  exact (gate_host _ rfl (val_main_v52 (F := Ideal) x0 x1 x3 x4 x5 x7 x8) _ _ _ _ r n).trans
    (gate_congr _ (fun k n => transpose_ix2_apply x13 _ k n) (fun n => rfl) n)

theorem cell1f_row (r : Fin 131072) (j : Fin 100) :
    val_main_v78 (F := Ideal) x0 x1 x3 x4 x5 x7 x8 x9 x11 x12 (ix2 r j) = cell (fun n => val_main_v58 (F := Ideal) x0 x1 x3 x4 x5 x7 x8 x9 x11 x12 (ix2 r n)) j := by
  unfold val_main_v78 val_main_v76 val_main_v75 val_main_cst_10 val_main_v74 val_main_v73 val_main_cst_9 val_main_v72 val_main_v71 val_main_v62 val_main_v77 val_main_v70 val_main_v68 val_main_v67 val_main_cst_8 val_main_v66 val_main_v65 val_main_cst_7 val_main_v64 val_main_v63 val_main_v59 val_main_v69 val_main_v61
  exact cell_host _ _ _ _ _ r j

theorem cell1b_row (r : Fin 131072) (j : Fin 100) :
    val_main_v104 (F := Ideal) x0 x1 x3 x4 x5 x7 x8 x13 x15 x16 (ix2 r j) = cell (fun n => val_main_v84 (F := Ideal) x0 x1 x3 x4 x5 x7 x8 x13 x15 x16 (ix2 r n)) j := by
  unfold val_main_v104 val_main_v102 val_main_v101 val_main_cst_14 val_main_v100 val_main_v99 val_main_cst_13 val_main_v98 val_main_v97 val_main_v88 val_main_v103 val_main_v96 val_main_v94 val_main_v93 val_main_cst_12 val_main_v92 val_main_v91 val_main_cst_11 val_main_v90 val_main_v89 val_main_v85 val_main_v95 val_main_v87
  exact cell_host _ _ _ _ _ r j

theorem layer1_row (r : Fin 131072) (k : Fin 200) :
    val_main_v105 (F := Ideal) x0 x1 x3 x4 x5 x7 x8 x9 x11 x12 x13 x15 x16 (ix2 r k)
      = layer (fun i => val_main_v52 (F := Ideal) x0 x1 x3 x4 x5 x7 x8 (ix2 r i)) (fun i n => x9 (ix2 n i)) (fun n => x11 (ix1 n) + x12 (ix1 n))
          (fun i n => x13 (ix2 n i)) (fun n => x15 (ix1 n) + x16 (ix1 n)) k := by
  unfold val_main_v105
  refine (join_apply _ _ _ r k).trans ?_
  unfold layer
  congr 1
  · funext j
    exact (cell1f_row x0 x1 x5 x9 x3 x4 x7 x8 x11 x12 r j).trans
      (congrArg (fun g => cell g j) (funext fun n => gates1f_row x0 x1 x5 x9 x3 x4 x7 x8 x11 x12 r n))
  · funext j
    exact (cell1b_row x0 x1 x5 x13 x3 x4 x7 x8 x15 x16 r j).trans
      (congrArg (fun g => cell g j) (funext fun n => gates1b_row x0 x1 x5 x13 x3 x4 x7 x8 x15 x16 r n))

/-! ## The head, and the whole result -/

theorem head_row (r : Fin 131072) :
    val_main_v116 (F := Ideal) x0 x1 x3 x4 x5 x7 x8 x9 x11 x12 x13 x15 x16 x17 x18 (ix2 r (0 : Fin 1))
      = head (fun k => val_main_v105 (F := Ideal) x0 x1 x3 x4 x5 x7 x8 x9 x11 x12 x13 x15 x16 (ix2 r k)) (fun k => x17 (ix2 (0 : Fin 1) k)) (x18 (ix1 (0 : Fin 1))) := by
  unfold val_main_v116 val_main_v115 val_main_cst_16 val_main_v114 val_main_v113 val_main_cst_15 val_main_v112 val_main_v111 val_main_v110 val_main_v107 val_main_v106 val_main_v109 val_main_v108
  exact (head_host _ rfl (val_main_v105 (F := Ideal) x0 x1 x3 x4 x5 x7 x8 x9 x11 x12 x13 x15 x16) _ _ _ _ _ r).trans
    (congrArg (fun w => head (fun k => val_main_v105 (F := Ideal) x0 x1 x3 x4 x5 x7 x8 x9 x11 x12 x13 x15 x16 (ix2 r k)) w (x18 (ix1 (0 : Fin 1))))
      (funext fun k => transpose_ix2_apply x17 _ k (0 : Fin 1)))

/-- Entry `(r, 0)` of the reference's result is the network on row `r`. -/
theorem result_row (r : Fin 131072) :
    val_main_v116 (F := Ideal) x0 x1 x3 x4 x5 x7 x8 x9 x11 x12 x13 x15 x16 x17 x18 (ix2 r (0 : Fin 1))
      = Cert.Result.resultAt x0 x1 x3 x4 x5 x7 x8 x9 x11 x12 x13 x15 x16 x17 x18 r := by
  rw [head_row]
  have h1 : (fun k => val_main_v105 (F := Ideal) x0 x1 x3 x4 x5 x7 x8 x9 x11 x12 x13 x15 x16 (ix2 r k))
      = layer (fun i => val_main_v52 (F := Ideal) x0 x1 x3 x4 x5 x7 x8 (ix2 r i)) (fun i n => x9 (ix2 n i)) (fun n => x11 (ix1 n) + x12 (ix1 n))
          (fun i n => x13 (ix2 n i)) (fun n => x15 (ix1 n) + x16 (ix1 n)) :=
    funext fun k => layer1_row x0 x1 x5 x9 x13 x3 x4 x7 x8 x11 x12 x15 x16 r k
  have h0 : (fun i => val_main_v52 (F := Ideal) x0 x1 x3 x4 x5 x7 x8 (ix2 r i))
      = layer (fun i => x0 (ix2 r i)) (fun i n => x1 (ix2 n i)) (fun n => x3 (ix1 n) + x4 (ix1 n))
          (fun i n => x5 (ix2 n i)) (fun n => x7 (ix1 n) + x8 (ix1 n)) :=
    funext fun k => layer0_row x0 x1 x5 x3 x4 x7 x8 r k
  rw [h1, h0]
  rfl

/-- THE REFERENCE'S RESULT ARRAY is `Result.result` of the arguments. -/
theorem reference_eq_result :
    val_main_v116 (F := Ideal) x0 x1 x3 x4 x5 x7 x8 x9 x11 x12 x13 x15 x16 x17 x18
      = Cert.Result.result x0 x1 x3 x4 x5 x7 x8 x9 x11 x12 x13 x15 x16 x17 x18 := by
  funext i
  obtain ⟨r, z, rfl⟩ : ∃ (r : Fin 131072) (z : Fin 1), i = ix2 r z := ⟨i 0, i 1, eq_ix2 i⟩
  obtain rfl : z = 0 := Subsingleton.elim _ _
  exact result_row x0 x1 x5 x9 x13 x3 x4 x7 x8 x11 x12 x15 x16 x17 x18 r

end Cert.ReferenceRow

end
-- ==== Proof.lean ====
/-
  The kernel `forward` against its `reference`: a two-layer bidirectional LSTM applied for one time step from the
  zero state to each of 131072 rows of width 216, followed by a linear head and a logistic, in f32.

  With the state zero the recurrent products vanish from both programs' text, so each is, row by row, the same
  composition: gate pre-activations `x · w_ihᵀ + (b_ih + b_hh)`, the cell `σ(o) · tanh(σ(i) · tanh(g))`, the two
  directions joined, the same again on the joined row, and `σ(h · w_outᵀ + b_out)`. The kernel does this on 64 blocks
  of 2048 rows with the weights transposed and the biases summed by host operations before the call; the reference
  does it on all rows at once and writes each logistic as `1 / (1 + e^(-x))`. At exact arithmetic both end with the
  result array `Result.result` of the arguments (`KernelArray.run`, `ReferenceRow.reference_eq_result`), entry by
  entry the same expression: the only facts of arithmetic used are that the logistic IS `1 / (1 + e^(-x))` on the
  extended reals and that a sum into a zero accumulator is the sum. Nothing needs the inputs finite.

  The three frames are the generated ones (the reference's is its generated run with the result dropped); the
  idealization rewrote nothing, so `preserves` is `True`.
-/
import proofs.«147335_j76656576299321_1_alg».proof.Defs
import proofs.«147335_j76656576299321_1_alg».proof.Proof.Gen.Kernel
import proofs.«147335_j76656576299321_1_alg».proof.Proof.Gen.Kernel.Skeleton
import proofs.«147335_j76656576299321_1_alg».proof.Proof.Gen.Kernel.Launch
import proofs.«147335_j76656576299321_1_alg».proof.Proof.Gen.Kernel.Points
import proofs.«147335_j76656576299321_1_alg».proof.Proof.Gen.Kernel.Frame
import proofs.«147335_j76656576299321_1_alg».proof.Proof.Gen.KernelIdeal
import proofs.«147335_j76656576299321_1_alg».proof.Proof.Gen.KernelIdeal.Skeleton
import proofs.«147335_j76656576299321_1_alg».proof.Proof.Gen.KernelIdeal.Launch
import proofs.«147335_j76656576299321_1_alg».proof.Proof.Gen.KernelIdeal.Points
import proofs.«147335_j76656576299321_1_alg».proof.Proof.Gen.KernelIdeal.Frame
import proofs.«147335_j76656576299321_1_alg».proof.Proof.Gen.ReferenceIdeal
import proofs.«147335_j76656576299321_1_alg».proof.Proof.Gen.Pre_finite_inputs
import proofs.«147335_j76656576299321_1_alg».proof.Proof.Gen.KernelIdeal.Value
import proofs.«147335_j76656576299321_1_alg».proof.Proof.Gen.ReferenceIdeal.Run
import proofs.«147335_j76656576299321_1_alg».proof.Proof.Gen.ReferenceIdeal.Read
import proofs.«147335_j76656576299321_1_alg».proof.Proof.KernelArray
import proofs.«147335_j76656576299321_1_alg».proof.Proof.ReferenceRow
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at `Result.result` of their arguments, and the arguments agree. -/
theorem algebraic : Cert.algebraic_KernelIdeal_ReferenceIdeal := by
  intro m ρ m' ρ' _ hagree
  refine ⟨fun c => Cert.KernelArray.final m c, Cert.KernelArray.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16, a17, a18⟩ := hagree c
  rw [Cert.ReferenceIdeal.Read.val_main_v116_eq, Cert.ReferenceRow.reference_eq_result,
    a0, a1, a3, a4, a5, a7, a8, a9, a11, a12, a13, a15, a16, a17, a18]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
